-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x1x4096 : Shape := ⟨3, ![8, 1, 4096]⟩
abbrev S1x1024x3 : Shape := ⟨3, ![1, 1024, 3]⟩
abbrev S1x1x1024 : Shape := ⟨3, ![1, 1, 1024]⟩
abbrev S1x1x4096 : Shape := ⟨3, ![1, 1, 4096]⟩
abbrev S1x1024 : Shape := ⟨2, ![1, 1024]⟩
abbrev S1x4096 : Shape := ⟨2, ![1, 4096]⟩
abbrev S1024x3 : Shape := ⟨2, ![1024, 3]⟩
abbrev S3x1024 : Shape := ⟨2, ![3, 1024]⟩
abbrev S1024x1024 : Shape := ⟨2, ![1024, 1024]⟩
abbrev S1024 : Shape := ⟨1, ![1024]⟩
abbrev S1024x1 : Shape := ⟨2, ![1024, 1]⟩
abbrev S4096 : Shape := ⟨1, ![4096]⟩
abbrev S8x4096 : Shape := ⟨2, ![8, 4096]⟩
abbrev S_ : Shape := ⟨0, ![]⟩
abbrev S8 : Shape := ⟨1, ![8]⟩

abbrev nBuf : Space → Nat
  | .hbm => 21
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x1024, .f32⟩
  | .local _ .vmem, ⟨9, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v38 : BitVec 32 := Scalar.muli arg2 c1024_i32
  v38
def k0_off1 (i : grid0.Coords) : Fin 2 → Nat :=
  let c0_18 : Index := 0#32
  let arg2 : BitVec 32 := BitVec.ofNat 32 (i 2).val
  let c1024_i32 : BitVec 32 := 1024#32
  let v38 : BitVec 32 := Scalar.muli arg2 c1024_i32
  let v39 : BitVec 32 := v38
  let v40 : Index := Scalar.indexCast v39
  ![0, v40.toNat]
def k0_cond3 (i : grid0.Coords) : BitVec 1 :=
  let arg2 : BitVec 32 := BitVec.ofNat 32 (i 2).val
  let c3_i32 : BitVec 32 := 3#32
  let v47 : BitVec 1 := Scalar.cmpi .eq arg2 c3_i32
  let v48 : BitVec 32 := Scalar.extui v47
  let c0_i32_20 : BitVec 32 := 0#32
  let v49 : BitVec 1 := Scalar.cmpi .ne v48 c0_i32_20
  v49

def k0_cond4 (i : grid0.Coords) : BitVec 1 :=
  let arg1 : BitVec 32 := BitVec.ofNat 32 (i 1).val
  let c3_i32_21 : BitVec 32 := 3#32
  let v50 : BitVec 1 := Scalar.cmpi .eq arg1 c3_i32_21
  let arg2 : BitVec 32 := BitVec.ofNat 32 (i 2).val
  let c3_i32_22 : BitVec 32 := 3#32
  let v51 : BitVec 1 := Scalar.cmpi .eq arg2 c3_i32_22
  let v52 : BitVec 1 := Scalar.andi v50 v51
  let v53 : BitVec 32 := Scalar.extui v52
  let c0_i32_23 : BitVec 32 := 0#32
  let v54 : BitVec 1 := Scalar.cmpi .ne v53 c0_i32_23
  v54

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  bitsLt_bf16_f32 : FTy.bits .bf16 < FTy.bits .f32
  transposes_S1024x3_p1_0_S3x1024 : S1024x3.Transposes [1, 0] S3x1024
  reduces_S1024x3_S1024 : S1024x3.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1x1024 : S1024.ShapeCasts S1x1024
  reduces_S1024x1024_S1024_2 : S1024x1024.Reduces [0] S1024
  shapeCasts_S1x1024_S1024 : S1x1024.ShapeCasts S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  shapeCasts_S1x4096_S4096 : S1x4096.ShapeCasts S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S1024x3_S3x1024_S1024x1024_1_0_0_1_n_n_wf : DotDims.WF S1024x3 S3x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x4096x3.size a
  hwx0_1 : ∀ i : grid0.Coords, EltTy.bits .f32 = 32 ∨ (Rect.block (s := S8x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x4096, .f32⟩
  | .hbm, ⟨3, _⟩ => ⟨S_, .f32⟩
  | .hbm, ⟨4, _⟩ => ⟨S8x4096x4096, .f32⟩
  | .hbm, ⟨5, _⟩ => ⟨S8x4096x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S8x4096x4096, .f32⟩
  | .hbm, ⟨11, _⟩ => ⟨S8x4096x4096, .f32⟩
  | .hbm, ⟨12, _⟩ => ⟨S8x4096x3, .f32⟩
  | .hbm, ⟨13, _⟩ => ⟨S_, .f32⟩
  | .hbm, ⟨14, _⟩ => ⟨S8x4096, .f32⟩
  | .hbm, ⟨15, _⟩ => ⟨S8x1x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.DistSpec.lean ====
/-
  Squared distances between two clouds of 4096 points in three coordinates, eight clouds at a time, over the extended
  reals: for points p of the first cloud and q of the second, (−2)·⟨p, q⟩ + ⟨p, p⟩ + ⟨q, q⟩, the sums over the three
  coordinates, grouped as written. The chamfer distance takes, for every p, the least distance to a q, and for every q
  the least distance to a p. This module states those two minima, and the one fact about minima that a tile-by-tile
  computation needs: a running minimum that starts at +∞ and meets every tile once is the minimum over all of them.
  A minimum is carried by its universal property (y ≤ x exactly when y is below every member), so that adding a tile
  is one use of `le_min_iff` and no set is ever enumerated.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- Eight clouds of 4096 points with three coordinates each. -/
abbrev Cloud : Type := (⟨3, ![8, 4096, 3]⟩ : Shape).Idx → EReal

/-- The factor −2, as the bit pattern both programs carry; it is never evaluated. -/
def negTwo : EReal := Ideal.ofBits .f32 0xC0000000#32

/-- The value every running minimum starts from: the pattern of +∞. -/
def posInf : EReal := Ideal.ofBits .f32 0x7F800000#32

/-- That pattern is the top of the extended reals. -/
theorem posInf_eq_top : posInf = ⊤ := by
  simp [posInf, Ideal.ofBits, Ideal.ieee]

/-- The squared distance from point `n` of cloud `b` of `f` to point `m` of cloud `b` of `g`. -/
def dist (f g : Cloud) (b : Fin 8) (n m : Fin 4096) : EReal :=
  (negTwo * ∑ k : Fin 3, f (ix3 b n k) * g (ix3 b m k) + ∑ k : Fin 3, f (ix3 b n k) * f (ix3 b n k))
    + ∑ k : Fin 3, g (ix3 b m k) * g (ix3 b m k)

/-- `x` is the minimum of `g` over the indices with property `P`: exactly the lower bounds of those values lie below it. -/
def IsMinOver {ι : Type} (P : ι → Prop) (g : ι → EReal) (x : EReal) : Prop :=
  ∀ y : EReal, y ≤ x ↔ ∀ i, P i → y ≤ g i

/-- A minimum over a given index set is unique. -/
theorem IsMinOver.unique {ι : Type} {P : ι → Prop} {g : ι → EReal} {x x' : EReal}
    (h : IsMinOver P g x) (h' : IsMinOver P g x') : x = x' :=
  eq_of_forall_le_iff fun y => (h y).trans (h' y).symm

/-- The index set may be described in any equivalent way. -/
theorem IsMinOver.congr_pred {ι : Type} {P Q : ι → Prop} {g : ι → EReal} {x : EReal}
    (h : IsMinOver P g x) (hPQ : ∀ i, P i ↔ Q i) : IsMinOver Q g x :=
  fun y => (h y).trans (forall_congr' fun i => by rw [hPQ i])

/-- Over no index at all the minimum is +∞. -/
theorem isMinOver_posInf {ι : Type} {P : ι → Prop} (g : ι → EReal) (hP : ∀ i, ¬P i) : IsMinOver P g posInf := by
  intro y
  rw [posInf_eq_top]
  exact ⟨fun _ i hi => absurd hi (hP i), fun _ => le_top⟩

/-- One more tile: the running minimum over `P`, met with the minimum of a tile's values folded from +∞, is the
    minimum over `P` together with the tile (the tile's members are the indices `e k`). -/
theorem IsMinOver.min_tile {ι κ : Type} [Fintype κ] {P Q : ι → Prop} {g : ι → EReal} {x : EReal}
    (hx : IsMinOver P g x) (e : κ → ι) (hQ : ∀ i, Q i ↔ P i ∨ ∃ k, e k = i) :
    IsMinOver Q g (min x (Finset.univ.fold min posInf fun k => g (e k))) := by
  intro y
  rw [le_min_iff, hx y, Finset.le_fold_min, posInf_eq_top]
  constructor
  · rintro ⟨h1, -, h2⟩ i hi
    rcases (hQ i).mp hi with hp | ⟨k, rfl⟩
    · exact h1 i hp
    · exact h2 k (Finset.mem_univ k)
  · intro h
    exact ⟨fun i hp => h i ((hQ i).mpr (Or.inl hp)), le_top, fun k _ => h (e k) ((hQ _).mpr (Or.inr ⟨k, rfl⟩))⟩

/-- The first tile of a run: from +∞ itself. -/
theorem isMinOver_first_tile {ι κ : Type} [Fintype κ] {Q : ι → Prop} (g : ι → EReal) (e : κ → ι)
    (hQ : ∀ i, Q i ↔ ∃ k, e k = i) :
    IsMinOver Q g (min posInf (Finset.univ.fold min posInf fun k => g (e k))) :=
  (isMinOver_posInf (P := fun _ => False) g fun _ h => h).min_tile e fun i => by rw [hQ i, false_or]

/-- A minimum folded over a whole finite index type from +∞. -/
theorem isMinOver_fold {κ : Type} [Fintype κ] (h : κ → EReal) :
    IsMinOver (fun _ : κ => True) h (Finset.univ.fold min posInf h) := by
  intro y
  rw [Finset.le_fold_min, posInf_eq_top]
  exact ⟨fun ⟨_, h2⟩ k _ => h2 k (Finset.mem_univ k), fun h2 => ⟨le_top, fun k _ => h2 k trivial⟩⟩

/-- For point `n` of the first cloud: the least squared distance to a point of the second. -/
def rowMin (f g : Cloud) (b : Fin 8) (n : Fin 4096) : EReal :=
  Finset.univ.fold min posInf fun m : Fin 4096 => dist f g b n m

/-- For point `m` of the second cloud: the least squared distance to a point of the first. -/
def colMin (f g : Cloud) (b : Fin 8) (m : Fin 4096) : EReal :=
  Finset.univ.fold min posInf fun n : Fin 4096 => dist f g b n m

theorem rowMin_isMin (f g : Cloud) (b : Fin 8) (n : Fin 4096) :
    IsMinOver (fun _ : Fin 4096 => True) (fun m => dist f g b n m) (rowMin f g b n) := isMinOver_fold _

theorem colMin_isMin (f g : Cloud) (b : Fin 8) (m : Fin 4096) :
    IsMinOver (fun _ : Fin 4096 => True) (fun n => dist f g b n m) (colMin f g b m) := isMinOver_fold _

end Cert.Chamfer

end
-- ==== Proof.KerIdx.lean ====
/-
  Where the grid's points sit. Point t of the 8 × 4 × 4 grid works on cloud t / 16, on the block of 1024 points of the
  first cloud numbered (t / 4) % 4 and on the block of the second cloud numbered t % 4; the block of an input window at
  that point is those 1024 points, all three coordinates; and the slice of the column-minima buffer the body touches
  starts at column (t % 4) · 1024.
-/
import proofs.«150301_j11776800325759_1_alg».proof.Proof.Gen.KernelIdeal.Frame
import Idealize.ShloMosaic.Lib.Pipeline.Value
import Idealize.ShloMosaic.Lib.ValueIdx

noncomputable section

namespace Cert.KernelIdeal.Idx

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

theorem N_eq : cfg0.N = 128 := N_0

/-- The cloud a point works on. -/
def bOf (t : Fin cfg0.N) : Fin 8 := ⟨t.val / 16, by have := t.isLt; have := N_eq; omega⟩
/-- Point `r` of the point's block of the first cloud, as a point of the cloud. -/
def rowOf (t : Fin cfg0.N) (r : Fin 1024) : Fin 4096 := ⟨t.val / 4 % 4 * 1024 + r.val, by have := r.isLt; omega⟩
/-- Point `j` of the point's block of the second cloud, as a point of the cloud. -/
def colOf (t : Fin cfg0.N) (j : Fin 1024) : Fin 4096 := ⟨t.val % 4 * 1024 + j.val, by have := j.isLt; omega⟩

/-- The block indices of the four windows at every point. -/
theorem index0 : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)
theorem index1 : ∀ t : Fin cfg0.N, win0_1.index t 0 = t.val / 16 ∧ win0_1.index t 1 = t.val % 4 ∧ win0_1.index t 2 = 0 :=
  (by decide +kernel : ∀ t : Fin grid0.N, win0_1.index t 0 = t.val / 16 ∧ win0_1.index t 1 = t.val % 4 ∧ win0_1.index t 2 = 0)
theorem index2 : ∀ t : Fin cfg0.N, win0_2.index t 0 = t.val / 16 ∧ win0_2.index t 1 = 0 ∧ win0_2.index t 2 = t.val / 4 % 4 :=
  (by decide +kernel : ∀ t : Fin grid0.N, win0_2.index t 0 = t.val / 16 ∧ win0_2.index t 1 = 0 ∧ win0_2.index t 2 = t.val / 4 % 4)
theorem index3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- The first column of the slice of column minima the body touches at a point. -/
theorem off1_one : ∀ t : Fin cfg0.N, k0_off1 (grid0.coords t) 1 = t.val % 4 * 1024 :=
  (by decide +kernel : ∀ t : Fin grid0.N, k0_off1 (grid0.coords t) 1 = t.val % 4 * 1024)

/-- The two clouds as the region finds them. -/
abbrev cloudF (c : Dev nD) : S8x4096x3.Idx → Elt F .f32 := V m c main_arg0
abbrev cloudG (c : Dev nD) : S8x4096x3.Idx → Elt F .f32 := V m c main_arg1
/-- The input blocks at a point, at their literal shape. -/
abbrev blkF (c : Dev nD) (t : Fin cfg0.N) : Vec F S1x1024x3 .f32 := iblk m c 0 t
abbrev blkG (c : Dev nD) (t : Fin cfg0.N) : Vec F S1x1024x3 .f32 := iblk m c 1 t

/-- The first window's block at a point holds the 1024 points of its block of the first cloud. -/
theorem blkF_apply (c : Dev nD) (t : Fin cfg0.N) (r : Fin 1024) (k : Fin 3) :
    blkF m c t (ix3 (0 : Fin 1) r k) = cloudF m c (ix3 (bOf t) (rowOf t r) k) := by
  unfold blkF iblk
  rw [View.read_apply]
  show V m c main_arg0 _ = V m c main_arg0 _
  congr 1
  funext a
  apply Fin.ext
  match a with
  | ⟨0, _⟩ => show win0_0.index t 0 * 1 + 1 * 0 = t.val / 16; rw [(index0 t).1]; omega
  | ⟨1, _⟩ => show win0_0.index t 1 * 1024 + 1 * r.val = t.val / 4 % 4 * 1024 + r.val; rw [(index0 t).2.1]; omega
  | ⟨2, _⟩ => show win0_0.index t 2 * 3 + 1 * k.val = k.val; rw [(index0 t).2.2]; omega

/-- The second window's block at a point holds the 1024 points of its block of the second cloud. -/
theorem blkG_apply (c : Dev nD) (t : Fin cfg0.N) (j : Fin 1024) (k : Fin 3) :
    blkG m c t (ix3 (0 : Fin 1) j k) = cloudG m c (ix3 (bOf t) (colOf t j) k) := by
  unfold blkG iblk
  rw [View.read_apply]
  show V m c main_arg1 _ = V m c main_arg1 _
  congr 1
  funext a
  apply Fin.ext
  match a with
  | ⟨0, _⟩ => show win0_1.index t 0 * 1 + 1 * 0 = t.val / 16; rw [(index1 t).1]; omega
  | ⟨1, _⟩ => show win0_1.index t 1 * 1024 + 1 * j.val = t.val % 4 * 1024 + j.val; rw [(index1 t).2.1]; omega
  | ⟨2, _⟩ => show win0_1.index t 2 * 3 + 1 * k.val = k.val; rw [(index1 t).2.2]; omega

end Cert.KernelIdeal.Idx

end
-- ==== Proof.KerPieces.lean ====
/-
  What one run of the kernel body leaves behind, case by case, as plain functions of what it found: the buffer of running
  row minima (one per point of the current block of the first cloud) holds the previous minima — or +∞ where the body
  first resets it — met with the row minima of the tile of distances; the buffer of running column minima (one per point
  of the whole second cloud) changes only on the 1024 columns of the current tile, where it is met with the tile's column
  minima; and at the last tile of a sweep the body copies a buffer to its output block unchanged.
-/
import proofs.«150301_j11776800325759_1_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Pieces

open Idealize.ShloMosaic Idealize.ShloMosaic.TcCoe Idealize.SL.Sem Idealize.ShloMosaic.ValueIdx
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The slice of the column-minima buffer a tile touches starts in row 0. -/
theorem off1_zero (i : grid0.Coords) : k0_off1 i 0 = 0 := rfl

/-- Column `off + j` of the buffer is element `j` of the tile's slice. -/
theorem slice_emb (i : grid0.Coords) (q : Fin 4096) (j : Fin 1024) (hq : q.val = k0_off1 i 1 + j.val) :
    (ix2 (0 : Fin 1) q : S1x4096.Idx) = (Rect.unit (s := S1x4096) (k0_off1 i) S1x1024.size (k0_off1_inb i)).emb (ix2 (0 : Fin 1) j) := by
  funext a
  apply Fin.ext
  rw [Rect.emb_apply]
  match a with
  | ⟨0, _⟩ => show (0 : Nat) = k0_off1 i 0 + 1 * 0; rw [off1_zero]
  | ⟨1, _⟩ => show q.val = k0_off1 i 1 + 1 * j.val; omega

/-- A column before or after the tile's 1024 columns is not in its slice. -/
theorem not_mem_slice (i : grid0.Coords) (q : Fin 4096) (hq : q.val < k0_off1 i 1 ∨ k0_off1 i 1 + 1024 ≤ q.val) :
    (ix2 (0 : Fin 1) q : S1x4096.Idx) ∉ (Rect.unit (s := S1x4096) (k0_off1 i) S1x1024.size (k0_off1_inb i)).set := by
  rw [Rect.mem_set_unit]
  intro h
  have h1 := h 1
  have e : ((ix2 (0 : Fin 1) q : S1x4096.Idx) 1 : Nat) = q.val := rfl
  have s : S1x1024.size 1 = 1024 := rfl
  rw [e, s] at h1
  omega

/-- A buffer filled whole reads as the fill, whatever it held before. -/
theorem read_writes_fill {sig : RefSig} {κ : Kind} {sp : Space} (v : View sig κ sp S1x4096 .f32) (f : v.ty.Contents (Elt F))
    (inb : ∀ a, (![0, 0] : Fin 2 → Nat) a + S1x4096.size a ≤ S1x4096.size a) (w : S1x4096.Idx → Elt F .f32) :
    v.read (Elt F) (v.writes (Elt F) f [(⟨Rect.unit ![0, 0] S1x4096.size inb, w⟩ : View.Piece (Elt F) S1x4096 .f32)]) = w := by
  rw [View.read_writes_eq_canon _ _ _ (fun y => ⟨_, List.mem_singleton_self _, View.mem_set_unit_zero hz2 inb y⟩),
    View.canon_unit_zero hz2]

/-- An element the last store does not touch reads what the earlier stores left. -/
theorem read_writes_cons_of_not_mem {sig : RefSig} {κ : Kind} {sp : Space} (v : View sig κ sp S1x4096 .f32) (f : v.ty.Contents (Elt F))
    (r : Rect S1x4096) (w : r.shape.Idx → Elt F .f32) (L : List (View.Piece (Elt F) S1x4096 .f32)) (y : S1x4096.Idx) (h : y ∉ r.set) :
    v.read (Elt F) (v.writes (Elt F) f ((⟨r, w⟩ : View.Piece (Elt F) S1x4096 .f32) :: L)) y = v.read (Elt F) (v.writes (Elt F) f L) y := by
  rw [View.writes_cons, View.read_slice_write_of_not_mem r _ _ _ (by rwa [Rect.map_emb_univ])]

/-! ### Case A -/

/-- The running row minima after the body: reset to +∞, then met with this tile's row minima. -/
theorem s0_A (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : cond0_0 i) (hc1 : cond0_1 i) (hc2 : ¬cond0_2 i) (hc3 : ¬cond0_3 i) (x0 x1 : Vec F S1x1024x3 .f32) :
    sout0_A_0 c i a3 h3 a4 h4 a5 h5 a6 h6 a7 h7 a8 h8 hc0 hc1 hc2 hc3 x0 x1 = k0_pay1 (k0_pay8 x0 x1 k0_pay5) := by
  unfold sout0_A_0
  rw [View.read_writes_eq_canon _ _ _ (scover0_A_0 c i a3 h3 a4 h4 a5 h5 a6 h6 a7 h7 a8 h8 hc0 hc1 hc2 hc3 x0 x1)]
  unfold kernelRun0_A
  dsimp only
  sl_unfold_run_names
  rw [View.canon_cons_unit_zero (S := S1x1024) hz2, View.readCov_unit_zero (S := S1x1024) _ hz2]
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- The running column minima after the body, at a column of this tile's slice: the value before (+∞ after the reset), met with the
    tile's column minimum. -/
theorem s1_A_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : cond0_0 i) (hc1 : cond0_1 i) (hc2 : ¬cond0_2 i) (hc3 : ¬cond0_3 i) (x0 x1 : Vec F S1x1024x3 .f32) (q : Fin 4096) (j : Fin 1024) (hq : q.val = k0_off1 i 1 + j.val) :
    sout0_A_1 c i a3 h3 a4 h4 a5 h5 a6 h6 a7 h7 a8 h8 hc0 hc1 hc2 hc3 x0 x1 (ix2 (0 : Fin 1) q)
      = k0_pay2 (k0_pay7 x0 x1) (View.ld k0_pay6 (Rect.unit (s := S1x4096) (k0_off1 i) S1x1024.size (k0_off1_inb i))) (ix2 (0 : Fin 1) j) := by
  unfold sout0_A_1
  unfold kernelRun0_A
  dsimp only
  sl_unfold_run_names
  rw [slice_emb i q j hq]
  refine (View.read_writes_cons_emb _ _ _ _ _ _).trans ?_
  rw [View.readAt_eq_ld a8.view, read_writes_fill]
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- … and at a column outside the slice: unchanged from the reset's +∞. -/
theorem s1_A_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : cond0_0 i) (hc1 : cond0_1 i) (hc2 : ¬cond0_2 i) (hc3 : ¬cond0_3 i) (x0 x1 : Vec F S1x1024x3 .f32) (q : Fin 4096)
    (hq : q.val < k0_off1 i 1 ∨ k0_off1 i 1 + 1024 ≤ q.val) :
    sout0_A_1 c i a3 h3 a4 h4 a5 h5 a6 h6 a7 h7 a8 h8 hc0 hc1 hc2 hc3 x0 x1 (ix2 (0 : Fin 1) q) = k0_pay6 (ix2 (0 : Fin 1) q) := by
  unfold sout0_A_1
  unfold kernelRun0_A
  dsimp only
  sl_unfold_run_names
  have hn := not_mem_slice i q hq
  rw [read_writes_cons_of_not_mem _ _ _ _ _ _ hn, read_writes_fill]

/-! ### Case B -/

/-- The running row minima after the body: what the point before left, met with this tile's row minima. -/
theorem s0_B (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : ¬cond0_2 i) (hc3 : ¬cond0_3 i) (x0 x1 : Vec F S1x1024x3 .f32) (xs0 : Vec F S1x1024 .f32) (xs1 : Vec F S1x4096 .f32) :
    sout0_B_0 c i a3 h3 a4 h4 a5 h5 a6 h6 a7 h7 a8 h8 hc0 hc1 hc2 hc3 x0 x1 xs0 xs1 = k0_pay1 (k0_pay8 x0 x1 xs0) := by
  unfold sout0_B_0
  rw [View.read_writes_eq_canon _ _ _ (scover0_B_0 c i a3 h3 a4 h4 a5 h5 a6 h6 a7 h7 a8 h8 hc0 hc1 hc2 hc3 x0 x1 xs0 xs1)]
  unfold kernelRun0_B
  dsimp only
  sl_unfold_run_names
  rw [View.canon_unit_zero hz2]
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- The running column minima after the body, at a column of this tile's slice: the value before, met with the
    tile's column minimum. -/
theorem s1_B_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : ¬cond0_2 i) (hc3 : ¬cond0_3 i) (x0 x1 : Vec F S1x1024x3 .f32) (xs0 : Vec F S1x1024 .f32) (xs1 : Vec F S1x4096 .f32) (q : Fin 4096) (j : Fin 1024) (hq : q.val = k0_off1 i 1 + j.val) :
    sout0_B_1 c i a3 h3 a4 h4 a5 h5 a6 h6 a7 h7 a8 h8 hc0 hc1 hc2 hc3 x0 x1 xs0 xs1 (ix2 (0 : Fin 1) q)
      = k0_pay2 (k0_pay7 x0 x1) (View.ld xs1 (Rect.unit (s := S1x4096) (k0_off1 i) S1x1024.size (k0_off1_inb i))) (ix2 (0 : Fin 1) j) := by
  unfold sout0_B_1
  unfold kernelRun0_B
  dsimp only
  sl_unfold_run_names
  rw [slice_emb i q j hq]
  refine (View.read_writes_cons_emb _ _ _ _ _ _).trans ?_
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- … and at a column outside the slice: unchanged. -/
theorem s1_B_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : ¬cond0_2 i) (hc3 : ¬cond0_3 i) (x0 x1 : Vec F S1x1024x3 .f32) (xs0 : Vec F S1x1024 .f32) (xs1 : Vec F S1x4096 .f32) (q : Fin 4096)
    (hq : q.val < k0_off1 i 1 ∨ k0_off1 i 1 + 1024 ≤ q.val) :
    sout0_B_1 c i a3 h3 a4 h4 a5 h5 a6 h6 a7 h7 a8 h8 hc0 hc1 hc2 hc3 x0 x1 xs0 xs1 (ix2 (0 : Fin 1) q) = xs1 (ix2 (0 : Fin 1) q) := by
  unfold sout0_B_1
  unfold kernelRun0_B
  dsimp only
  sl_unfold_run_names
  rw [View.read_writes_apply_of_forall_not_mem _ _ _ _ (fun p hp => by
    rw [List.mem_singleton] at hp; subst hp; exact not_mem_slice i q hq), h8.read_unread]

/-! ### Case C -/

/-- The running row minima after the body: what the point before left, met with this tile's row minima. -/
theorem s0_C (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : cond0_2 i) (hc3 : ¬cond0_3 i) (x0 x1 : Vec F S1x1024x3 .f32) (xs0 : Vec F S1x1024 .f32) (xs1 : Vec F S1x4096 .f32) :
    sout0_C_0 c i a3 h3 a4 h4 a5 h5 a6 h6 a7 h7 a8 h8 hc0 hc1 hc2 hc3 x0 x1 xs0 xs1 = k0_pay1 (k0_pay8 x0 x1 xs0) := by
  unfold sout0_C_0
  rw [View.read_writes_eq_canon _ _ _ (scover0_C_0 c i a3 h3 a4 h4 a5 h5 a6 h6 a7 h7 a8 h8 hc0 hc1 hc2 hc3 x0 x1 xs0 xs1)]
  unfold kernelRun0_C
  dsimp only
  sl_unfold_run_names
  rw [View.canon_unit_zero hz2]
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- The running column minima after the body, at a column of this tile's slice: the value before, met with the
    tile's column minimum. -/
theorem s1_C_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : cond0_2 i) (hc3 : ¬cond0_3 i) (x0 x1 : Vec F S1x1024x3 .f32) (xs0 : Vec F S1x1024 .f32) (xs1 : Vec F S1x4096 .f32) (q : Fin 4096) (j : Fin 1024) (hq : q.val = k0_off1 i 1 + j.val) :
    sout0_C_1 c i a3 h3 a4 h4 a5 h5 a6 h6 a7 h7 a8 h8 hc0 hc1 hc2 hc3 x0 x1 xs0 xs1 (ix2 (0 : Fin 1) q)
      = k0_pay2 (k0_pay7 x0 x1) (View.ld xs1 (Rect.unit (s := S1x4096) (k0_off1 i) S1x1024.size (k0_off1_inb i))) (ix2 (0 : Fin 1) j) := by
  unfold sout0_C_1
  unfold kernelRun0_C
  dsimp only
  sl_unfold_run_names
  rw [slice_emb i q j hq]
  refine (View.read_writes_cons_emb _ _ _ _ _ _).trans ?_
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- … and at a column outside the slice: unchanged. -/
theorem s1_C_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : cond0_2 i) (hc3 : ¬cond0_3 i) (x0 x1 : Vec F S1x1024x3 .f32) (xs0 : Vec F S1x1024 .f32) (xs1 : Vec F S1x4096 .f32) (q : Fin 4096)
    (hq : q.val < k0_off1 i 1 ∨ k0_off1 i 1 + 1024 ≤ q.val) :
    sout0_C_1 c i a3 h3 a4 h4 a5 h5 a6 h6 a7 h7 a8 h8 hc0 hc1 hc2 hc3 x0 x1 xs0 xs1 (ix2 (0 : Fin 1) q) = xs1 (ix2 (0 : Fin 1) q) := by
  unfold sout0_C_1
  unfold kernelRun0_C
  dsimp only
  sl_unfold_run_names
  rw [View.read_writes_apply_of_forall_not_mem _ _ _ _ (fun p hp => by
    rw [List.mem_singleton] at hp; subst hp; exact not_mem_slice i q hq), h8.read_unread]

/-- What the body copies to the first output's block: the running row minima it has just stored. -/
theorem o2_C (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : cond0_2 i) (hc3 : ¬cond0_3 i) (x0 x1 : Vec F S1x1024x3 .f32) (xs0 : Vec F S1x1024 .f32) (xs1 : Vec F S1x4096 .f32) :
    out0_C_2 c i a3 h3 a4 h4 a5 h5 a6 h6 a7 h7 a8 h8 hc0 hc1 hc2 hc3 x0 x1 xs0 xs1 = k0_pay3 (k0_pay1 (k0_pay8 x0 x1 xs0)) := by
  unfold out0_C_2
  rw [View.read_writes_eq_canon _ _ _ (cover0_C_2 c i a3 h3 a4 h4 a5 h5 a6 h6 a7 h7 a8 h8 hc0 hc1 hc2 hc3 x0 x1 xs0 xs1)]
  unfold kernelRun0_C
  dsimp only
  sl_unfold_run_names
  rw [View.canon_unit_zero hz3, View.readCov_unit_zero (S := S1x1024) _ hz2]
  simp only [View.readAt_eq_ld, h3.read_unread, h4.read_unread, h7.read_unread, h8.read_unread, View.ld_unit_zero (S := S1x1024x3) hz3, View.ld_unit_zero (S := S1x1024) hz2, View.ld_unit_zero (S := S1x4096) hz2]

/-! ### Case D -/

/-- The running row minima after the body: reset to +∞, then met with this tile's row minima. -/
theorem s0_D (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : cond0_0 i) (hc1 : ¬cond0_1 i) (hc2 : ¬cond0_2 i) (hc3 : ¬cond0_3 i) (x0 x1 : Vec F S1x1024x3 .f32) (xs1 : Vec F S1x4096 .f32) :
    sout0_D_0 c i a3 h3 a4 h4 a5 h5 a6 h6 a7 h7 a8 h8 hc0 hc1 hc2 hc3 x0 x1 xs1 = k0_pay1 (k0_pay8 x0 x1 k0_pay5) := by
  unfold sout0_D_0
  rw [View.read_writes_eq_canon _ _ _ (scover0_D_0 c i a3 h3 a4 h4 a5 h5 a6 h6 a7 h7 a8 h8 hc0 hc1 hc2 hc3 x0 x1 xs1)]
  unfold kernelRun0_D
  dsimp only
  sl_unfold_run_names
  rw [View.canon_cons_unit_zero (S := S1x1024) hz2, View.readCov_unit_zero (S := S1x1024) _ hz2]
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- The running column minima after the body, at a column of this tile's slice: the value before, met with the
    tile's column minimum. -/
theorem s1_D_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : cond0_0 i) (hc1 : ¬cond0_1 i) (hc2 : ¬cond0_2 i) (hc3 : ¬cond0_3 i) (x0 x1 : Vec F S1x1024x3 .f32) (xs1 : Vec F S1x4096 .f32) (q : Fin 4096) (j : Fin 1024) (hq : q.val = k0_off1 i 1 + j.val) :
    sout0_D_1 c i a3 h3 a4 h4 a5 h5 a6 h6 a7 h7 a8 h8 hc0 hc1 hc2 hc3 x0 x1 xs1 (ix2 (0 : Fin 1) q)
      = k0_pay2 (k0_pay7 x0 x1) (View.ld xs1 (Rect.unit (s := S1x4096) (k0_off1 i) S1x1024.size (k0_off1_inb i))) (ix2 (0 : Fin 1) j) := by
  unfold sout0_D_1
  unfold kernelRun0_D
  dsimp only
  sl_unfold_run_names
  rw [slice_emb i q j hq]
  refine (View.read_writes_cons_emb _ _ _ _ _ _).trans ?_
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- … and at a column outside the slice: unchanged. -/
theorem s1_D_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : cond0_0 i) (hc1 : ¬cond0_1 i) (hc2 : ¬cond0_2 i) (hc3 : ¬cond0_3 i) (x0 x1 : Vec F S1x1024x3 .f32) (xs1 : Vec F S1x4096 .f32) (q : Fin 4096)
    (hq : q.val < k0_off1 i 1 ∨ k0_off1 i 1 + 1024 ≤ q.val) :
    sout0_D_1 c i a3 h3 a4 h4 a5 h5 a6 h6 a7 h7 a8 h8 hc0 hc1 hc2 hc3 x0 x1 xs1 (ix2 (0 : Fin 1) q) = xs1 (ix2 (0 : Fin 1) q) := by
  unfold sout0_D_1
  unfold kernelRun0_D
  dsimp only
  sl_unfold_run_names
  rw [View.read_writes_apply_of_forall_not_mem _ _ _ _ (fun p hp => by
    rw [List.mem_singleton] at hp; subst hp; exact not_mem_slice i q hq), h8.read_unread]

/-! ### Case E -/

/-- The running row minima after the body: what the point before left, met with this tile's row minima. -/
theorem s0_E (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : cond0_2 i) (hc3 : cond0_3 i) (x0 x1 : Vec F S1x1024x3 .f32) (xs0 : Vec F S1x1024 .f32) (xs1 : Vec F S1x4096 .f32) :
    sout0_E_0 c i a3 h3 a4 h4 a5 h5 a6 h6 a7 h7 a8 h8 hc0 hc1 hc2 hc3 x0 x1 xs0 xs1 = k0_pay1 (k0_pay8 x0 x1 xs0) := by
  unfold sout0_E_0
  rw [View.read_writes_eq_canon _ _ _ (scover0_E_0 c i a3 h3 a4 h4 a5 h5 a6 h6 a7 h7 a8 h8 hc0 hc1 hc2 hc3 x0 x1 xs0 xs1)]
  unfold kernelRun0_E
  dsimp only
  sl_unfold_run_names
  rw [View.canon_unit_zero hz2]
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- The running column minima after the body, at a column of this tile's slice: the value before, met with the
    tile's column minimum. -/
theorem s1_E_in (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : cond0_2 i) (hc3 : cond0_3 i) (x0 x1 : Vec F S1x1024x3 .f32) (xs0 : Vec F S1x1024 .f32) (xs1 : Vec F S1x4096 .f32) (q : Fin 4096) (j : Fin 1024) (hq : q.val = k0_off1 i 1 + j.val) :
    sout0_E_1 c i a3 h3 a4 h4 a5 h5 a6 h6 a7 h7 a8 h8 hc0 hc1 hc2 hc3 x0 x1 xs0 xs1 (ix2 (0 : Fin 1) q)
      = k0_pay2 (k0_pay7 x0 x1) (View.ld xs1 (Rect.unit (s := S1x4096) (k0_off1 i) S1x1024.size (k0_off1_inb i))) (ix2 (0 : Fin 1) j) := by
  unfold sout0_E_1
  unfold kernelRun0_E
  dsimp only
  sl_unfold_run_names
  rw [slice_emb i q j hq]
  refine (View.read_writes_cons_emb _ _ _ _ _ _).trans ?_
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- … and at a column outside the slice: unchanged. -/
theorem s1_E_out (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : cond0_2 i) (hc3 : cond0_3 i) (x0 x1 : Vec F S1x1024x3 .f32) (xs0 : Vec F S1x1024 .f32) (xs1 : Vec F S1x4096 .f32) (q : Fin 4096)
    (hq : q.val < k0_off1 i 1 ∨ k0_off1 i 1 + 1024 ≤ q.val) :
    sout0_E_1 c i a3 h3 a4 h4 a5 h5 a6 h6 a7 h7 a8 h8 hc0 hc1 hc2 hc3 x0 x1 xs0 xs1 (ix2 (0 : Fin 1) q) = xs1 (ix2 (0 : Fin 1) q) := by
  unfold sout0_E_1
  unfold kernelRun0_E
  dsimp only
  sl_unfold_run_names
  rw [View.read_writes_apply_of_forall_not_mem _ _ _ _ (fun p hp => by
    rw [List.mem_singleton] at hp; subst hp; exact not_mem_slice i q hq), h8.read_unread]

/-- What the body copies to the first output's block: the running row minima it has just stored. -/
theorem o2_E (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : cond0_2 i) (hc3 : cond0_3 i) (x0 x1 : Vec F S1x1024x3 .f32) (xs0 : Vec F S1x1024 .f32) (xs1 : Vec F S1x4096 .f32) :
    out0_E_2 c i a3 h3 a4 h4 a5 h5 a6 h6 a7 h7 a8 h8 hc0 hc1 hc2 hc3 x0 x1 xs0 xs1 = k0_pay3 (k0_pay1 (k0_pay8 x0 x1 xs0)) := by
  unfold out0_E_2
  rw [View.read_writes_eq_canon _ _ _ (cover0_E_2 c i a3 h3 a4 h4 a5 h5 a6 h6 a7 h7 a8 h8 hc0 hc1 hc2 hc3 x0 x1 xs0 xs1)]
  unfold kernelRun0_E
  dsimp only
  sl_unfold_run_names
  rw [View.canon_unit_zero hz3, View.readCov_unit_zero (S := S1x1024) _ hz2]
  simp only [View.readAt_eq_ld, h3.read_unread, h4.read_unread, h7.read_unread, h8.read_unread, View.ld_unit_zero (S := S1x1024x3) hz3, View.ld_unit_zero (S := S1x1024) hz2, View.ld_unit_zero (S := S1x4096) hz2]

/-- What the body copies to the second output's block: the running column minima it has just stored. -/
theorem o3_E (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x4096 .f32) (h6 : a6.IsWhole) (a7 : Memref sig .tc .vmem S1x1024 .f32) (h7 : a7.IsWhole) (a8 : Memref sig .tc .vmem S1x4096 .f32) (h8 : a8.IsWhole) (hc0 : ¬cond0_0 i) (hc1 : ¬cond0_1 i) (hc2 : cond0_2 i) (hc3 : cond0_3 i) (x0 x1 : Vec F S1x1024x3 .f32) (xs0 : Vec F S1x1024 .f32) (xs1 : Vec F S1x4096 .f32) :
    out0_E_3 c i a3 h3 a4 h4 a5 h5 a6 h6 a7 h7 a8 h8 hc0 hc1 hc2 hc3 x0 x1 xs0 xs1 = k0_pay4 (sout0_E_1 c i a3 h3 a4 h4 a5 h5 a6 h6 a7 h7 a8 h8 hc0 hc1 hc2 hc3 x0 x1 xs0 xs1) := by
  unfold out0_E_3 sout0_E_1
  rw [View.read_writes_eq_canon _ _ _ (cover0_E_3 c i a3 h3 a4 h4 a5 h5 a6 h6 a7 h7 a8 h8 hc0 hc1 hc2 hc3 x0 x1 xs0 xs1)]
  unfold kernelRun0_E
  dsimp only
  sl_unfold_run_names
  rw [View.canon_unit_zero hz3]
  simp only [View.readAt_eq_ld, h3.read_unread, h4.read_unread, h7.read_unread, h8.read_unread, View.ld_unit_zero (S := S1x1024x3) hz3, View.ld_unit_zero (S := S1x1024) hz2, View.ld_unit_zero (S := S1x4096) hz2]

end Cert.KernelIdeal.Pieces

end
-- ==== Proof.KerTile.lean ====
/-
  The kernel body's arithmetic read at an index, at the extended reals: the tile of squared distances between the 1024
  points of one block of the first cloud and the 1024 points of one block of the second, its row and column minima met
  with the running minima, and the reshapes and +∞ fills around them.
-/
import proofs.«150301_j11776800325759_1_alg».proof.Proof.Gen.KernelIdeal.Skeleton
import proofs.«150301_j11776800325759_1_alg».proof.Proof.DistSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx
open Cert.KernelIdeal Cert.KernelIdeal.Gen

variable {F : FTy → Type} [FloatOps F]

/-- A minimum reduction over one axis, at the extended reals: the fold of `min` from the accumulator's value over that
    axis's coordinates. -/
private theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The minimum over the columns of row r of a 1024 × 1024 tile. -/
private theorem rowMin_apply (T : FVec Ideal S1024x1024 .f32) (h : S1024x1024.Reduces [1] S1024) (hφ : FKind.Formats .f32)
    (hacc : (0x7F800000#32 : BitVec 32) = FKind.minimumf.neutral .f32 hφ) (r : Fin 1024) :
    multiReduction .minimumf [1] S1024 T 0x7F800000#32 h hφ hacc (ix1 r)
      = Finset.univ.fold min Cert.Chamfer.posInf fun j : Fin 1024 => T (ix2 r j) := by
  refine (multiReduction_minimumf_single T _ h hφ hacc (ix1 r)).trans ?_
  show (Finset.univ : Finset (Fin 1024)).fold min Cert.Chamfer.posInf (T ∘ h.lift (ix1 r)) = _
  refine congrArg (Finset.univ.fold min Cert.Chamfer.posInf) (funext fun j => congrArg T (funext fun a => Fin.ext ?_))
  match a with
  | ⟨0, _⟩ => rfl
  | ⟨1, _⟩ => rfl

/-- The minimum over the rows of column j of a 1024 × 1024 tile. -/
private theorem colMin_apply (T : FVec Ideal S1024x1024 .f32) (h : S1024x1024.Reduces [0] S1024) (hφ : FKind.Formats .f32)
    (hacc : (0x7F800000#32 : BitVec 32) = FKind.minimumf.neutral .f32 hφ) (j : Fin 1024) :
    multiReduction .minimumf [0] S1024 T 0x7F800000#32 h hφ hacc (ix1 j)
      = Finset.univ.fold min Cert.Chamfer.posInf fun r : Fin 1024 => T (ix2 r j) := by
  refine (multiReduction_minimumf_single T _ h hφ hacc (ix1 j)).trans ?_
  show (Finset.univ : Finset (Fin 1024)).fold min Cert.Chamfer.posInf (T ∘ h.lift (ix1 j)) = _
  refine congrArg (Finset.univ.fold min Cert.Chamfer.posInf) (funext fun r => congrArg T (funext fun a => Fin.ext ?_))
  match a with
  | ⟨0, _⟩ => rfl
  | ⟨1, _⟩ => rfl

/-- The matmul's left operand index keeps the result's row on axis 0 … -/
private theorem lhs_dot_S1024x3_S3x1024_S1024x1024_1_0_0_1_n_n_0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
/-- … and carries the contraction coordinate on axis 1. -/
private theorem lhs_dot_S1024x3_S3x1024_S1024x1024_1_0_0_1_n_n_1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
/-- The right operand index carries the contraction coordinate on axis 0 … -/
private theorem rhs_dot_S1024x3_S3x1024_S1024x1024_1_0_0_1_n_n_0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
/-- … and keeps the result's column on axis 1. -/
private theorem rhs_dot_S1024x3_S3x1024_S1024x1024_1_0_0_1_n_n_1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- Entry (r, j) of a [1024, 3] × [3, 1024] product into a zero accumulator: the sum over the three contracted
    coordinates of the operands' products. -/
private theorem matmul_entry (A : FVec Ideal S1024x3 .bf16) (B : FVec Ideal S3x1024 .bf16) (r j : Fin 1024) :
    matmul dot_S1024x3_S3x1024_S1024x1024_1_0_0_1_n_n none A B (constant S1024x1024 .f32 0x00000000#32) (ix2 r j)
      = ∑ k : Fin 3, A (ix2 r k) * B (ix2 k j) := by
  simp only [matmul]
  rw [Ideal.matmul_constant_zero_apply, ← Equiv.sum_comp (ValueIdx.contrEquiv1 dot_S1024x3_S3x1024_S1024x1024_1_0_0_1_n_n 3 rfl rfl).symm]
  refine Finset.sum_congr rfl fun k _ => ?_
  have hk := ValueIdx.contrEquiv1_symm_val dot_S1024x3_S3x1024_S1024x1024_1_0_0_1_n_n 3 rfl rfl k
  have el : dot_S1024x3_S3x1024_S1024x1024_1_0_0_1_n_n.lhsIdx (ix2 r j) ((ValueIdx.contrEquiv1 dot_S1024x3_S3x1024_S1024x1024_1_0_0_1_n_n 3 rfl rfl).symm k) = ix2 r k := funext fun a => Fin.ext (by
    match a with
    | ⟨0, _⟩ => exact lhs_dot_S1024x3_S3x1024_S1024x1024_1_0_0_1_n_n_0 _ _
    | ⟨1, _⟩ => exact (lhs_dot_S1024x3_S3x1024_S1024x1024_1_0_0_1_n_n_1 _ _).trans hk)
  have er : dot_S1024x3_S3x1024_S1024x1024_1_0_0_1_n_n.rhsIdx (ix2 r j) ((ValueIdx.contrEquiv1 dot_S1024x3_S3x1024_S1024x1024_1_0_0_1_n_n 3 rfl rfl).symm k) = ix2 k j := funext fun a => Fin.ext (by
    match a with
    | ⟨0, _⟩ => exact (rhs_dot_S1024x3_S3x1024_S1024x1024_1_0_0_1_n_n_0 _ _).trans hk
    | ⟨1, _⟩ => exact rhs_dot_S1024x3_S3x1024_S1024x1024_1_0_0_1_n_n_1 _ _)
  rw [el, er]

/-- The sum of a [1024, 3] array over its three columns, at row r. -/
private theorem laneSum_apply (V : FVec Ideal S1024x3 .f32) (h : S1024x3.Reduces [1] S1024) (hφ : FKind.Formats .f32)
    (hacc : (0x00000000#32 : BitVec 32) = FKind.add.neutral .f32 hφ) (r : Fin 1024) :
    multiReduction .add [1] S1024 V 0x00000000#32 h hφ hacc (ix1 r) = ∑ k : Fin 3, V (ix2 r k) := by
  refine (Ideal.multiReduction_add_single V _ h hφ hacc (ix1 r)).trans ?_
  show ∑ k : Fin 3, V (h.lift (ix1 r) k) = _
  refine Finset.sum_congr rfl fun k _ => congrArg V (funext fun a => Fin.ext ?_)
  match a with
  | ⟨0, _⟩ => rfl
  | ⟨1, _⟩ => rfl

/-- An [a] array cast to [a, 1] reads, at (i, u), the operand at i, whatever the unit coordinate u. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A block's points, [1, 1024, 3] read as [1024, 3]. -/
private theorem pts_apply (x : Vec Ideal S1x1024x3 .f32) (h : S1x1024x3.ShapeCasts S1024x3) (r : Fin 1024) (k : Fin 3) :
    shapeCast S1024x3 x h (ix2 r k) = x (ix3 (0 : Fin 1) r k) :=
  shapeCast_1ab_ab_apply x h r k

/-- The squared norm of point r of a block, held as a [1024, 1] column. -/
private theorem sqNormCol_apply (P : FVec Ideal S1024x3 .f32) (r : Fin 1024) :
    shapeCast S1024x1 (multiReduction .add [1] S1024 (mulf P P) 0x00000000#32 reduces_S1024x3_S1024 (.inl rfl) rfl)
        shapeCasts_S1024_S1024x1 (ix2 r (0 : Fin 1))
      = ∑ k : Fin 3, P (ix2 r k) * P (ix2 r k) :=
  (shapeCast_a_a1_apply _ _ r (0 : Fin 1)).trans (laneSum_apply (mulf P P) _ _ _ r)

/-- Entry (r, j) of the tile: the squared distance between point r of the first block and point j of the second. -/
theorem pay7_apply (x0 x1 : Vec Ideal S1x1024x3 .f32) (r j : Fin 1024) :
    k0_pay7 (F := Ideal) x0 x1 (ix2 r j)
      = (Cert.Chamfer.negTwo * ∑ k : Fin 3, x0 (ix3 (0 : Fin 1) r k) * x1 (ix3 (0 : Fin 1) j k)
          + ∑ k : Fin 3, x0 (ix3 (0 : Fin 1) r k) * x0 (ix3 (0 : Fin 1) r k))
        + ∑ k : Fin 3, x1 (ix3 (0 : Fin 1) j k) * x1 (ix3 (0 : Fin 1) j k) := by
  unfold k0_pay7
  simp only [addf_apply, mulf_apply, broadcast_apply]
  rw [matmul_entry, broadcastTo_a1_ab_apply, sqNormCol_apply, broadcastTo_1b_ab_apply, transpose_ix2_apply, sqNormCol_apply]
  have e0 : ∀ k : Fin 3, shapeCast S1024x3 x0 shapeCasts_S1x1024x3_S1024x3 (ix2 r k) = x0 (ix3 (0 : Fin 1) r k) :=
    fun k => pts_apply x0 _ r k
  have e1 : ∀ k : Fin 3, shapeCast S1024x3 x1 shapeCasts_S1x1024x3_S1024x3 (ix2 j k) = x1 (ix3 (0 : Fin 1) j k) :=
    fun k => pts_apply x1 _ j k
  refine congrArg₂ (· + ·) (congrArg₂ (· + ·) (congrArg₂ (· * ·) rfl ?_) ?_) ?_
  · refine Finset.sum_congr rfl fun k _ => ?_
    rw [transpose_ix2_apply, truncf_apply, truncf_apply, e0 k, e1 k]
  · exact Finset.sum_congr rfl fun k _ => by rw [e0 k]
  · exact Finset.sum_congr rfl fun k _ => by rw [e1 k]

/-- The running row minimum after this tile: the one before, met with the minimum of row r of the tile. -/
theorem pay8_apply (x0 x1 : Vec Ideal S1x1024x3 .f32) (v31 : Vec Ideal S1x1024 .f32) (r : Fin 1024) :
    k0_pay8 (F := Ideal) x0 x1 v31 (ix2 (0 : Fin 1) r)
      = min (v31 (ix2 (0 : Fin 1) r))
          (Finset.univ.fold min Cert.Chamfer.posInf fun j : Fin 1024 => k0_pay7 (F := Ideal) x0 x1 (ix2 r j)) := by
  unfold k0_pay8
  generalize k0_pay7 (F := Ideal) x0 x1 = T
  refine congrArg (min (v31 (ix2 (0 : Fin 1) r))) ?_
  exact (shapeCast_a_1a_apply _ _ (0 : Fin 1) r).trans (rowMin_apply T _ _ _ r)

/-- The running column minimum after this tile: the one before, met with the minimum of column j of the tile. -/
theorem pay2_apply (v28 : FVec Ideal S1024x1024 .f32) (v41 : Vec Ideal S1x1024 .f32) (j : Fin 1024) :
    k0_pay2 (F := Ideal) v28 v41 (ix2 (0 : Fin 1) j)
      = min (v41 (ix2 (0 : Fin 1) j))
          (Finset.univ.fold min Cert.Chamfer.posInf fun r : Fin 1024 => v28 (ix2 r j)) := by
  unfold k0_pay2
  rw [shapeCast_self]
  refine congrArg (min (v41 (ix2 (0 : Fin 1) j))) ?_
  exact (shapeCast_a_1a_apply _ _ (0 : Fin 1) j).trans (colMin_apply v28 _ _ _ j)

/-- Storing the running row minimum changes nothing of it. -/
theorem pay1_eq (v : FVec F S1x1024 .f32) : k0_pay1 v = v := by
  unfold k0_pay1
  exact shapeCast_self _ _

/-- The row minima copied out: [1, 1024] read as [1, 1, 1024]. -/
theorem pay3_apply (v : Vec F S1x1024 .f32) (r : Fin 1024) :
    k0_pay3 v (ix3 (0 : Fin 1) (0 : Fin 1) r) = v (ix2 (0 : Fin 1) r) := by
  unfold k0_pay3
  refine (shapeCast_apply _ _ _ (ix1 r) ?_).trans (shapeCast_1a_a_apply _ _ r)
  rw [Shape.rowMajor_val_three, Shape.rowMajor_val_one]
  show r.val = (0 * 1 + 0) * 1024 + r.val
  omega

/-- The column minima copied out: [1, 4096] read as [1, 1, 4096]. -/
theorem pay4_apply (v : Vec F S1x4096 .f32) (q : Fin 4096) :
    k0_pay4 v (ix3 (0 : Fin 1) (0 : Fin 1) q) = v (ix2 (0 : Fin 1) q) := by
  unfold k0_pay4
  refine (shapeCast_apply _ _ _ (ix1 q) ?_).trans (shapeCast_1a_a_apply _ _ q)
  rw [Shape.rowMajor_val_three, Shape.rowMajor_val_one]
  show q.val = (0 * 1 + 0) * 4096 + q.val
  omega

/-- The fill a row-minimum buffer is reset with is +∞ everywhere. -/
theorem pay5_apply (y : S1x1024.Idx) : k0_pay5 (F := Ideal) y = Cert.Chamfer.posInf := by
  unfold k0_pay5
  rw [shapeCast_self]
  rfl

/-- The fill the column-minimum buffer is reset with is +∞ everywhere. -/
theorem pay6_apply (y : S1x4096.Idx) : k0_pay6 (F := Ideal) y = Cert.Chamfer.posInf := by
  unfold k0_pay6
  rw [shapeCast_self]
  rfl

end Cert.KernelIdeal.Tile

end
-- ==== Proof.KerInv.lean ====
/-
  The two running minima along the grid. Within one cloud the grid sweeps the blocks of the first cloud one after the
  other, and for each of them the four blocks of the second cloud. After the body at a point, the buffer of running row
  minima holds, for each point of the current block of the first cloud, the least squared distance to the points of the
  second cloud in the blocks swept so far for it; the buffer of running column minima holds, for each point of the second
  cloud, the least squared distance to the points of the first cloud in the blocks that have met its block so far. Both
  are proved by induction on the position in the grid, each of the body's five cases adding one tile to what was there
  (or starting again from +∞). At the end of a sweep the row minima are over the whole second cloud, at the end of a cloud
  the column minima are over the whole first cloud, and there the body copies them to its output blocks.
-/
import proofs.«150301_j11776800325759_1_alg».proof.Proof.Gen.KernelIdeal.Frame
import proofs.«150301_j11776800325759_1_alg».proof.Proof.DistSpec
import proofs.«150301_j11776800325759_1_alg».proof.Proof.KerIdx
import proofs.«150301_j11776800325759_1_alg».proof.Proof.KerPieces
import proofs.«150301_j11776800325759_1_alg».proof.Proof.KerTile

-- rectangles of production extents: the elaborator recurses once per coordinate of the long axes
set_option maxRecDepth 16384

noncomputable section

namespace Cert.KernelIdeal.Inv

open Idealize.ShloMosaic Idealize.ShloMosaic.TcCoe Idealize.SL.Sem Idealize.ShloMosaic.ValueIdx
open Cert.KernelIdeal Cert.KernelIdeal.Gen Cert.KernelIdeal.Idx Cert.KernelIdeal.Pieces Cert.KernelIdeal.Tile
open Cert.Chamfer

variable (m : (ℓ : Loc nD τ sig) → Buf (Elt Ideal) ℓ)

/-- Entry (r, j) of the tile at a point is the squared distance between the two cloud points it stands for. -/
theorem tile_apply (c : Dev nD) (t : Fin cfg0.N) (r j : Fin 1024) :
    k0_pay7 (F := Ideal) (blkF m c t) (blkG m c t) (ix2 r j)
      = dist (cloudF m c) (cloudG m c) (bOf t) (rowOf t r) (colOf t j) := by
  rw [pay7_apply]
  simp only [blkF_apply, blkG_apply]
  rfl

/-- Before the body at a point: row minima over the columns of the blocks already swept for this row block. -/
def RowPre (c : Dev nD) (t : Fin cfg0.N) (p0 : Vec Ideal S1x1024 .f32) : Prop :=
  ∀ r : Fin 1024, IsMinOver (fun m' : Fin 4096 => m'.val < t.val % 4 * 1024)
    (fun m' => dist (cloudF m c) (cloudG m c) (bOf t) (rowOf t r) m') (p0 (ix2 (0 : Fin 1) r))

/-- After it: over this block's columns too. -/
def RowPost (c : Dev nD) (t : Fin cfg0.N) (s0 : Vec Ideal S1x1024 .f32) : Prop :=
  ∀ r : Fin 1024, IsMinOver (fun m' : Fin 4096 => m'.val < (t.val % 4 + 1) * 1024)
    (fun m' => dist (cloudF m c) (cloudG m c) (bOf t) (rowOf t r) m') (s0 (ix2 (0 : Fin 1) r))

/-- Before the body at a point: column q's minimum is over the rows of the earlier row blocks, and of this row block too
    if q's column block has already been met in this sweep. -/
def ColPre (c : Dev nD) (t : Fin cfg0.N) (p1 : Vec Ideal S1x4096 .f32) : Prop :=
  ∀ q : Fin 4096, IsMinOver
    (fun n' : Fin 4096 => n'.val < t.val / 4 % 4 * 1024 ∨ (q.val / 1024 < t.val % 4 ∧ n'.val < (t.val / 4 % 4 + 1) * 1024))
    (fun n' => dist (cloudF m c) (cloudG m c) (bOf t) n' q) (p1 (ix2 (0 : Fin 1) q))

/-- After it: this point's column block has been met too. -/
def ColPost (c : Dev nD) (t : Fin cfg0.N) (s1 : Vec Ideal S1x4096 .f32) : Prop :=
  ∀ q : Fin 4096, IsMinOver
    (fun n' : Fin 4096 => n'.val < t.val / 4 % 4 * 1024 ∨ (q.val / 1024 ≤ t.val % 4 ∧ n'.val < (t.val / 4 % 4 + 1) * 1024))
    (fun n' => dist (cloudF m c) (cloudG m c) (bOf t) n' q) (s1 (ix2 (0 : Fin 1) q))

/-- One tile more for the row minima. -/
theorem rowPost_of_pre (c : Dev nD) (t : Fin cfg0.N) (p0 : Vec Ideal S1x1024 .f32) (hp : RowPre m c t p0) :
    RowPost m c t (k0_pay1 (k0_pay8 (F := Ideal) (blkF m c t) (blkG m c t) p0)) := by
  intro r
  rw [pay1_eq, pay8_apply]
  simp only [tile_apply]
  refine (hp r).min_tile (colOf t) (fun m' => ?_)
  constructor
  · intro h
    by_cases h' : m'.val < t.val % 4 * 1024
    · exact Or.inl h'
    · exact Or.inr ⟨⟨m'.val - t.val % 4 * 1024, by omega⟩,
        Fin.ext (by show t.val % 4 * 1024 + (m'.val - t.val % 4 * 1024) = m'.val; omega)⟩
  · rintro (h | ⟨j, rfl⟩)
    · omega
    · show t.val % 4 * 1024 + j.val < (t.val % 4 + 1) * 1024
      have := j.isLt
      omega

/-- One tile more for the column minima: the slice of this tile's columns is met with the tile's column minima, the
    other columns are left alone. -/
theorem colPost_of_pre (c : Dev nD) (t : Fin cfg0.N) (s1 p1 : Vec Ideal S1x4096 .f32)
    (e1in : ∀ (q : Fin 4096) (j : Fin 1024), q.val = k0_off1 (grid0.coords t) 1 + j.val →
      s1 (ix2 (0 : Fin 1) q) = k0_pay2 (F := Ideal) (k0_pay7 (blkF m c t) (blkG m c t)) (View.ld p1 (Rect.unit (s := S1x4096) (k0_off1 (grid0.coords t)) S1x1024.size (k0_off1_inb (grid0.coords t)))) (ix2 (0 : Fin 1) j))
    (e1out : ∀ q : Fin 4096, q.val < k0_off1 (grid0.coords t) 1 ∨ k0_off1 (grid0.coords t) 1 + 1024 ≤ q.val →
      s1 (ix2 (0 : Fin 1) q) = p1 (ix2 (0 : Fin 1) q))
    (hp : ColPre m c t p1) : ColPost m c t s1 := by
  intro q
  have hoff := off1_one t
  have hq4 := q.isLt
  by_cases hq : q.val / 1024 = t.val % 4
  · have hj : q.val - t.val % 4 * 1024 < 1024 := by omega
    have hqj : q.val = k0_off1 (grid0.coords t) 1 + (⟨q.val - t.val % 4 * 1024, hj⟩ : Fin 1024).val := by
      rw [hoff]; show q.val = t.val % 4 * 1024 + (q.val - t.val % 4 * 1024); omega
    rw [e1in q ⟨q.val - t.val % 4 * 1024, hj⟩ hqj, pay2_apply]
    have hld : View.ld p1 (Rect.unit (s := S1x4096) (k0_off1 (grid0.coords t)) S1x1024.size (k0_off1_inb (grid0.coords t))) (ix2 (0 : Fin 1) (⟨q.val - t.val % 4 * 1024, hj⟩ : Fin 1024)) = p1 (ix2 (0 : Fin 1) q) :=
      congrArg p1 (slice_emb (grid0.coords t) q ⟨q.val - t.val % 4 * 1024, hj⟩ hqj).symm
    rw [hld]
    simp only [tile_apply]
    have hc : colOf t (⟨q.val - t.val % 4 * 1024, hj⟩ : Fin 1024) = q :=
      Fin.ext (by show t.val % 4 * 1024 + (q.val - t.val % 4 * 1024) = q.val; omega)
    rw [hc]
    refine (hp q).min_tile (rowOf t) (fun n' => ?_)
    constructor
    · intro h
      by_cases h' : n'.val < t.val / 4 % 4 * 1024
      · exact Or.inl (Or.inl h')
      · exact Or.inr ⟨⟨n'.val - t.val / 4 % 4 * 1024, by omega⟩,
          Fin.ext (by show t.val / 4 % 4 * 1024 + (n'.val - t.val / 4 % 4 * 1024) = n'.val; omega)⟩
    · rintro (h | ⟨r, rfl⟩)
      · omega
      · have := r.isLt
        exact Or.inr ⟨by omega, by show t.val / 4 % 4 * 1024 + r.val < (t.val / 4 % 4 + 1) * 1024; omega⟩
  · rw [e1out q (by rw [hoff]; omega)]
    exact (hp q).congr_pred (fun n' => by omega)

/-- Within a sweep the point before left exactly what this point expects of the row minima. -/
theorem rowPre_of_prev (c : Dev nD) (t t' : Fin cfg0.N) (ht : t'.val + 1 = t.val) (h4 : t.val % 4 ≠ 0)
    (s : Vec Ideal S1x1024 .f32) (h : RowPost m c t' s) : RowPre m c t s := by
  intro r
  have hb : bOf t' = bOf t := Fin.ext (by show t'.val / 16 = t.val / 16; omega)
  have hr : rowOf t' r = rowOf t r := Fin.ext (by show t'.val / 4 % 4 * 1024 + r.val = t.val / 4 % 4 * 1024 + r.val; omega)
  have h' := h r
  rw [hb, hr] at h'
  exact h'.congr_pred (fun m' => by omega)

/-- At the start of a sweep the row minima start again from +∞. -/
theorem rowPre_reset (c : Dev nD) (t : Fin cfg0.N) (h4 : t.val % 4 = 0) : RowPre m c t (k0_pay5 (F := Ideal)) := by
  intro r
  rw [pay5_apply]
  exact isMinOver_posInf _ (fun m' => by omega)

/-- Within a cloud the point before left exactly what this point expects of the column minima. -/
theorem colPre_of_prev (c : Dev nD) (t t' : Fin cfg0.N) (ht : t'.val + 1 = t.val) (h16 : t.val % 16 ≠ 0)
    (s : Vec Ideal S1x4096 .f32) (h : ColPost m c t' s) : ColPre m c t s := by
  intro q
  have hb : bOf t' = bOf t := Fin.ext (by show t'.val / 16 = t.val / 16; omega)
  have hq4 := q.isLt
  have h' := h q
  rw [hb] at h'
  exact h'.congr_pred (fun n' => by omega)

/-- At the start of a cloud the column minima start again from +∞. -/
theorem colPre_reset (c : Dev nD) (t : Fin cfg0.N) (h16 : t.val % 16 = 0) : ColPre m c t (k0_pay6 (F := Ideal)) := by
  intro q
  rw [pay6_apply]
  exact isMinOver_posInf _ (fun n' => by omega)

/-- Case A: after the body both buffers hold the minima over what has been seen up to and including this tile. -/
theorem post_A (c : Dev nD) (t : Fin cfg0.N) (hc0 : cond0_0 (grid0.coords t)) (hc1 : cond0_1 (grid0.coords t)) (hc2 : ¬cond0_2 (grid0.coords t)) (hc3 : ¬cond0_3 (grid0.coords t))  (h4 : t.val % 4 = 0) (h16 : t.val % 16 = 0) :
    RowPost m c t (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t)) ∧ ColPost m c t (sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t)) := by
  refine ⟨?_, ?_⟩
  · rw [s0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t)]
    exact rowPost_of_pre m c t (k0_pay5 (F := Ideal)) (rowPre_reset m c t h4)
  · exact colPost_of_pre m c t _ (k0_pay6 (F := Ideal))
      (fun q j hq => s1_A_in c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) q j hq)
      (fun q hq => s1_A_out c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) q hq) (colPre_reset m c t h16)

/-- Case B: after the body both buffers hold the minima over what has been seen up to and including this tile. -/
theorem post_B (c : Dev nD) (t : Fin cfg0.N) (hc0 : ¬cond0_0 (grid0.coords t)) (hc1 : ¬cond0_1 (grid0.coords t)) (hc2 : ¬cond0_2 (grid0.coords t)) (hc3 : ¬cond0_3 (grid0.coords t)) (p0 : Vec Ideal S1x1024 .f32) (p1 : Vec Ideal S1x4096 .f32) (hp0 : RowPre m c t p0) (hp1 : ColPre m c t p1) :
    RowPost m c t (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1) ∧ ColPost m c t (sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1) := by
  refine ⟨?_, ?_⟩
  · rw [s0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1]
    exact rowPost_of_pre m c t p0 (hp0)
  · exact colPost_of_pre m c t _ p1
      (fun q j hq => s1_B_in c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1 q j hq)
      (fun q hq => s1_B_out c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1 q hq) (hp1)

/-- Case C: after the body both buffers hold the minima over what has been seen up to and including this tile. -/
theorem post_C (c : Dev nD) (t : Fin cfg0.N) (hc0 : ¬cond0_0 (grid0.coords t)) (hc1 : ¬cond0_1 (grid0.coords t)) (hc2 : cond0_2 (grid0.coords t)) (hc3 : ¬cond0_3 (grid0.coords t)) (p0 : Vec Ideal S1x1024 .f32) (p1 : Vec Ideal S1x4096 .f32) (hp0 : RowPre m c t p0) (hp1 : ColPre m c t p1) :
    RowPost m c t (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1) ∧ ColPost m c t (sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1) := by
  refine ⟨?_, ?_⟩
  · rw [s0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1]
    exact rowPost_of_pre m c t p0 (hp0)
  · exact colPost_of_pre m c t _ p1
      (fun q j hq => s1_C_in c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1 q j hq)
      (fun q hq => s1_C_out c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1 q hq) (hp1)

/-- Case D: after the body both buffers hold the minima over what has been seen up to and including this tile. -/
theorem post_D (c : Dev nD) (t : Fin cfg0.N) (hc0 : cond0_0 (grid0.coords t)) (hc1 : ¬cond0_1 (grid0.coords t)) (hc2 : ¬cond0_2 (grid0.coords t)) (hc3 : ¬cond0_3 (grid0.coords t)) (p1 : Vec Ideal S1x4096 .f32) (h4 : t.val % 4 = 0) (hp1 : ColPre m c t p1) :
    RowPost m c t (sout0_D_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p1) ∧ ColPost m c t (sout0_D_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p1) := by
  refine ⟨?_, ?_⟩
  · rw [s0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p1]
    exact rowPost_of_pre m c t (k0_pay5 (F := Ideal)) (rowPre_reset m c t h4)
  · exact colPost_of_pre m c t _ p1
      (fun q j hq => s1_D_in c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p1 q j hq)
      (fun q hq => s1_D_out c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p1 q hq) (hp1)

/-- Case E: after the body both buffers hold the minima over what has been seen up to and including this tile. -/
theorem post_E (c : Dev nD) (t : Fin cfg0.N) (hc0 : ¬cond0_0 (grid0.coords t)) (hc1 : ¬cond0_1 (grid0.coords t)) (hc2 : cond0_2 (grid0.coords t)) (hc3 : cond0_3 (grid0.coords t)) (p0 : Vec Ideal S1x1024 .f32) (p1 : Vec Ideal S1x4096 .f32) (hp0 : RowPre m c t p0) (hp1 : ColPre m c t p1) :
    RowPost m c t (sout0_E_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1) ∧ ColPost m c t (sout0_E_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1) := by
  refine ⟨?_, ?_⟩
  · rw [s0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1]
    exact rowPost_of_pre m c t p0 (hp0)
  · exact colPost_of_pre m c t _ p1
      (fun q j hq => s1_E_in c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1 q j hq)
      (fun q hq => s1_E_out c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 hc3 (blkF m c t) (blkG m c t) p0 p1 q hq) (hp1)

/-- The two buffers after every point of the grid. -/
theorem post_all (c : Dev nD) : ∀ (n : ℕ) (hn : n < cfg0.N),
    RowPost m c ⟨n, hn⟩ (outsAt0 m c n hn).2.2.1 ∧ ColPost m c ⟨n, hn⟩ (outsAt0 m c n hn).2.2.2
  | 0, hn => by
    rw [outsAt0_A m c ⟨0, hn⟩ rfl rfl (by show ¬(0 : ℕ) % 4 = 3; decide) (by show ¬(0 : ℕ) % 16 = 15; decide)]
    dsimp only
    exact post_A m c ⟨0, hn⟩ _ _ _ _ rfl rfl
  | n + 1, hn => by
    have ih := post_all c n (Nat.lt_of_succ_lt hn)
    have ht : (⟨n, Nat.lt_of_succ_lt hn⟩ : Fin cfg0.N).val + 1 = (⟨n + 1, hn⟩ : Fin cfg0.N).val := rfl
    by_cases h0 : (n + 1) % 4 = 0
    · by_cases h1 : (n + 1) % 16 = 0
      · have h2 : ¬(n + 1) % 4 = 3 := by omega
        have h3 : ¬(n + 1) % 16 = 15 := by omega
        rw [outsAt0_A m c ⟨n + 1, hn⟩ h0 h1 h2 h3]
        dsimp only
        exact post_A m c ⟨n + 1, hn⟩ _ _ _ _ h0 h1
      · have h2 : ¬(n + 1) % 4 = 3 := by omega
        have h3 : ¬(n + 1) % 16 = 15 := by omega
        rw [outsAt0_D m c ⟨n + 1, hn⟩ h0 h1 h2 h3]
        dsimp only
        exact post_D m c ⟨n + 1, hn⟩ _ _ _ _ _ h0 (colPre_of_prev m c ⟨n + 1, hn⟩ ⟨n, Nat.lt_of_succ_lt hn⟩ ht h1 _ ih.2)
    · have h1 : ¬(n + 1) % 16 = 0 := by omega
      have hp0 := rowPre_of_prev m c ⟨n + 1, hn⟩ ⟨n, Nat.lt_of_succ_lt hn⟩ ht h0 _ ih.1
      have hp1 := colPre_of_prev m c ⟨n + 1, hn⟩ ⟨n, Nat.lt_of_succ_lt hn⟩ ht h1 _ ih.2
      by_cases h2 : (n + 1) % 4 = 3
      · by_cases h3 : (n + 1) % 16 = 15
        · rw [outsAt0_E m c ⟨n + 1, hn⟩ h0 h1 h2 h3]
          dsimp only
          exact post_E m c ⟨n + 1, hn⟩ _ _ _ _ _ _ hp0 hp1
        · rw [outsAt0_C m c ⟨n + 1, hn⟩ h0 h1 h2 h3]
          dsimp only
          exact post_C m c ⟨n + 1, hn⟩ _ _ _ _ _ _ hp0 hp1
      · have h3 : ¬(n + 1) % 16 = 15 := by omega
        rw [outsAt0_B m c ⟨n + 1, hn⟩ h0 h1 h2 h3]
        dsimp only
        exact post_B m c ⟨n + 1, hn⟩ _ _ _ _ _ _ hp0 hp1

/-- At the end of a sweep the first output's staging block is a copy of the row minima; at the end of a cloud the second
    output's staging block is a copy of the column minima. -/
theorem outs_copy (c : Dev nD) (t : Fin cfg0.N) :
    (t.val % 4 = 3 → ∀ r : Fin 1024,
        (outsAt0 m c t.val t.isLt).1 (ix3 (0 : Fin 1) (0 : Fin 1) r) = (outsAt0 m c t.val t.isLt).2.2.1 (ix2 (0 : Fin 1) r))
    ∧ (t.val % 16 = 15 → ∀ q : Fin 4096,
        (outsAt0 m c t.val t.isLt).2.1 (ix3 (0 : Fin 1) (0 : Fin 1) q) = (outsAt0 m c t.val t.isLt).2.2.2 (ix2 (0 : Fin 1) q)) := by
  by_cases h2 : t.val % 4 = 3
  · have h0 : ¬t.val % 4 = 0 := by omega
    have h1 : ¬t.val % 16 = 0 := by omega
    by_cases h3 : t.val % 16 = 15
    · rw [outsAt0_E m c t h0 h1 h2 h3]
      dsimp only
      refine ⟨fun _ r => ?_, fun _ q => ?_⟩
      · rw [o2_E, s0_E, pay3_apply]
      · rw [o3_E, pay4_apply]
    · rw [outsAt0_C m c t h0 h1 h2 h3]
      dsimp only
      refine ⟨fun _ r => ?_, fun h => absurd h h3⟩
      rw [o2_C, s0_C, pay3_apply]
  · exact ⟨fun h => absurd h h2, fun h => absurd (by omega) h2⟩

/-- So at the end of every sweep the first output's block holds, for its 1024 points, the least distance to the second cloud. -/
theorem out2_eq (c : Dev nD) (t : Fin cfg0.N) (h : t.val % 4 = 3) (r : Fin 1024) :
    (outsAt0 m c t.val t.isLt).1 (ix3 (0 : Fin 1) (0 : Fin 1) r)
      = rowMin (cloudF m c) (cloudG m c) (bOf t) (rowOf t r) := by
  rw [(outs_copy m c t).1 h r]
  have hp := (post_all m c t.val t.isLt).1 r
  exact (hp.congr_pred (fun m' => by have := m'.isLt; show m'.val < (t.val % 4 + 1) * 1024 ↔ True; simp only [iff_true]; omega)).unique
    (rowMin_isMin _ _ _ _)

/-- … and at the end of every cloud the second output's block holds, for all 4096 points, the least distance to the first cloud. -/
theorem out3_eq (c : Dev nD) (t : Fin cfg0.N) (h : t.val % 16 = 15) (q : Fin 4096) :
    (outsAt0 m c t.val t.isLt).2.1 (ix3 (0 : Fin 1) (0 : Fin 1) q)
      = colMin (cloudF m c) (cloudG m c) (bOf t) q := by
  rw [(outs_copy m c t).2 h q]
  have hp := (post_all m c t.val t.isLt).2 q
  exact (hp.congr_pred (fun n' => by
    have := n'.isLt; have := q.isLt
    show (n'.val < t.val / 4 % 4 * 1024 ∨ (q.val / 1024 ≤ t.val % 4 ∧ n'.val < (t.val / 4 % 4 + 1) * 1024)) ↔ True
    simp only [iff_true]; omega)).unique (colMin_isMin _ _ _ _)

end Cert.KernelIdeal.Inv

end
-- ==== Proof.KerArr.lean ====
/-
  From blocks to arrays. The first output, [8, 1, 4096], is written back one block of 1024 entries at the end of every
  sweep over the second cloud (the points t with t % 4 = 3): block (t / 16, 0, (t / 4) % 4). The second output,
  [8, 1, 4096], is written back whole for its cloud at the end of every cloud (t % 16 = 15): block (t / 16, 0, 0).
  If each of those blocks holds the nearest-neighbour minima of its part of the clouds, the two arrays hold them everywhere.
-/
import proofs.«150301_j11776800325759_1_alg».proof.Proof.Gen.KernelIdeal.Frame
import proofs.«150301_j11776800325759_1_alg».proof.Proof.DistSpec
import proofs.«150301_j11776800325759_1_alg».proof.Proof.KerIdx
import Idealize.ShloMosaic.Lib.Pipeline.Value
import Idealize.ShloMosaic.Lib.ValueIdx

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Idx

variable (m : (ℓ : Loc nD τ sig) → Buf (Elt Ideal) ℓ)

/-- The first output as it should end: entry (b, 0, n) the least squared distance from point n of cloud b to the second cloud. -/
def rowArr (c : Dev nD) : Buf (Elt Ideal) ((c : Thread nD τ).loc main_v0_0) :=
  fun i => Cert.Chamfer.rowMin (cloudF m c) (cloudG m c) ⟨(i 0).val, (i 0).isLt⟩ ⟨(i 2).val, (i 2).isLt⟩

/-- The second output as it should end: entry (b, 0, q) the least squared distance from point q of the second cloud to the first. -/
def colArr (c : Dev nD) : Buf (Elt Ideal) ((c : Thread nD τ).loc main_v0_1) :=
  fun i => Cert.Chamfer.colMin (cloudF m c) (cloudG m c) ⟨(i 0).val, (i 0).isLt⟩ ⟨(i 2).val, (i 2).isLt⟩

/-- If at the end of every sweep the first output's staging block holds the row minima of its 1024 points, the first
    output ends holding the row minima of every point. -/
theorem final2 (c : Dev nD)
    (hrow : ∀ t : Fin cfg0.N, t.val % 4 = 3 → ∀ r : Fin 1024,
      (outsAt0 m c t.val t.isLt).1 (ix3 (0 : Fin 1) (0 : Fin 1) r)
        = Cert.Chamfer.rowMin (cloudF m c) (cloudG m c) (bOf t) (rowOf t r)) :
    (dats m 0 c).arrAt 2 cfg0.N = rowArr m c := by
  refine (dats m 0 c).arrAt_eq_of_cover 2 (rowArr m c) ?_ ?_
  · -- what a sweep's last point writes back is its block of the row minima: entry (0, 0, r) of the block sits in the
    -- array at (t / 16, 0, (t / 4 % 4) · 1024 + r), point r of the block's 1024 points of cloud t / 16
    intro t hf
    have ht : t.val % 4 = 3 := (flush0_2 t).mp hf
    obtain ⟨e0, e1, e2⟩ := index2 t
    show (cfg0.win 2).cut (grid0.coords t) ((dats m 0 c).after 2 t) = _
    rw [after0_2]
    funext y
    obtain ⟨a, b, r, rfl⟩ : ∃ (a : Fin 1) (b : Fin 1) (r : Fin 1024), y = ix3 a b r := ⟨y 0, y 1, y 2, eq_ix3 y⟩
    obtain rfl : a = 0 := Subsingleton.elim _ _
    obtain rfl : b = 0 := Subsingleton.elim _ _
    rw [View.read_apply]
    refine Eq.trans (hrow t ht r) ?_
    show _ = rowArr m c (((cfg0.win 2).blk t).view.emb (ix3 (0 : Fin 1) (0 : Fin 1) r))
    unfold rowArr
    exact congrArg₂ (Cert.Chamfer.rowMin (cloudF m c) (cloudG m c))
      (Fin.ext (by show t.val / 16 = win0_2.index t 0 * 1 + 1 * 0; rw [e0]; omega))
      (Fin.ext (by show t.val / 4 % 4 * 1024 + r.val = win0_2.index t 2 * 1024 + 1 * r.val; rw [e2]; omega))
  · -- entry (b, 0, n) lies in the block written back at the last point of the sweep for block n / 1024 of cloud b
    intro (i : S8x1x4096.Idx)
    have hi0 : (i 0 : Nat) < 8 := (i 0).isLt
    have hi1 : (i 1 : Nat) < 1 := (i 1).isLt
    have hi2 : (i 2 : Nat) < 4096 := (i 2).isLt
    have hN := N_eq
    obtain ⟨t, htv⟩ : ∃ t : Fin cfg0.N, t.val = 16 * (i 0).val + 4 * ((i 2).val / 1024) + 3 := ⟨⟨_, by omega⟩, rfl⟩
    obtain ⟨e0, e1, e2⟩ := index2 t
    refine ⟨t, (flush0_2 t).mpr (by omega), ?_⟩
    show i ∈ ((View.whole main_v0_0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [e0]; omega
    | ⟨1, _⟩ =>
      show win0_2.index t 1 * 1 ≤ (i 1 : Nat) ∧ (i 1 : Nat) < win0_2.index t 1 * 1 + 1
      rw [e1]; omega
    | ⟨2, _⟩ =>
      show win0_2.index t 2 * 1024 ≤ (i 2 : Nat) ∧ (i 2 : Nat) < win0_2.index t 2 * 1024 + 1024
      rw [e2]; omega

/-- If at the end of every cloud the second output's staging block holds the column minima of all 4096 points, the
    second output ends holding the column minima of every point. -/
theorem final3 (c : Dev nD)
    (hcol : ∀ t : Fin cfg0.N, t.val % 16 = 15 → ∀ q : Fin 4096,
      (outsAt0 m c t.val t.isLt).2.1 (ix3 (0 : Fin 1) (0 : Fin 1) q)
        = Cert.Chamfer.colMin (cloudF m c) (cloudG m c) (bOf t) q) :
    (dats m 0 c).arrAt 3 cfg0.N = colArr m c := by
  refine (dats m 0 c).arrAt_eq_of_cover 3 (colArr m c) ?_ ?_
  · -- what a cloud's last point writes back is the cloud's whole row of column minima: entry (0, 0, q) of the block
    -- sits in the array at (t / 16, 0, q)
    intro t hf
    have ht : t.val % 16 = 15 := (flush0_3 t).mp hf
    obtain ⟨e0, e1, e2⟩ := index3 t
    show (cfg0.win 3).cut (grid0.coords t) ((dats m 0 c).after 3 t) = _
    rw [after0_3]
    funext y
    obtain ⟨a, b, q, rfl⟩ : ∃ (a : Fin 1) (b : Fin 1) (q : Fin 4096), y = ix3 a b q := ⟨y 0, y 1, y 2, eq_ix3 y⟩
    obtain rfl : a = 0 := Subsingleton.elim _ _
    obtain rfl : b = 0 := Subsingleton.elim _ _
    rw [View.read_apply]
    refine Eq.trans (hcol t ht q) ?_
    show _ = colArr m c (((cfg0.win 3).blk t).view.emb (ix3 (0 : Fin 1) (0 : Fin 1) q))
    unfold colArr
    exact congrArg₂ (Cert.Chamfer.colMin (cloudF m c) (cloudG m c))
      (Fin.ext (by show t.val / 16 = win0_3.index t 0 * 1 + 1 * 0; rw [e0]; omega))
      (Fin.ext (by show q.val = win0_3.index t 2 * 4096 + 1 * q.val; rw [e2]; omega))
  · -- entry (b, 0, q) lies in the block written back at the last point of cloud b
    intro (i : S8x1x4096.Idx)
    have hi0 : (i 0 : Nat) < 8 := (i 0).isLt
    have hi1 : (i 1 : Nat) < 1 := (i 1).isLt
    have hi2 : (i 2 : Nat) < 4096 := (i 2).isLt
    have hN := N_eq
    obtain ⟨t, htv⟩ : ∃ t : Fin cfg0.N, t.val = 16 * (i 0).val + 15 := ⟨⟨_, by omega⟩, rfl⟩
    obtain ⟨e0, e1, e2⟩ := index3 t
    refine ⟨t, (flush0_3 t).mpr (by omega), ?_⟩
    show i ∈ ((View.whole main_v0_1).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [e0]; omega
    | ⟨1, _⟩ =>
      show win0_3.index t 1 * 1 ≤ (i 1 : Nat) ∧ (i 1 : Nat) < win0_3.index t 1 * 1 + 1
      rw [e1]; omega
    | ⟨2, _⟩ =>
      show win0_3.index t 2 * 4096 ≤ (i 2 : Nat) ∧ (i 2 : Nat) < win0_3.index t 2 * 4096 + 4096
      rw [e2]; omega

end Cert.KernelIdeal.Arr

end
-- ==== Proof.KerTail.lean ====
/-
  After the kernel region the program finishes on the host: each of the two output arrays [8, 1, 4096] is read as
  [8, 4096], summed over its 4096 entries per cloud and divided by 4096; the two means are added; the eight sums are
  summed and divided by 8. The reference ends with the very same operations on its two arrays of minima, so the chain is
  named once, as one function of the two arrays, and never opened.
-/
import proofs.«150301_j11776800325759_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.KernelIdeal.Tail

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]

/-- The mean over the eight clouds of (mean of the first array's rows + mean of the second array's rows), on arrays
    already read as [8, 4096]. -/
def meanOfMeans (a b : (⟨S8x4096, .f32⟩ : BufTy).Contents (Elt F)) : (⟨S_, .f32⟩ : BufTy).Contents (Elt F) :=
  Host.divf
    (Host.reduceAdd
      (addf
        (Host.divf (Host.reduceAdd a (constant S_ .f32 0x00000000#32) reducesTo_S8x4096_S8_d1 h_S_)
          (broadcastInDim S8 ![] bcast_S_S8 (constant S_ .f32 0x45800000#32)))
        (Host.divf (Host.reduceAdd b (constant S_ .f32 0x00000000#32) reducesTo_S8x4096_S8_d1 h_S_)
          (broadcastInDim S8 ![] bcast_S_S8 (constant S_ .f32 0x45800000#32))))
      (constant S_ .f32 0x00000000#32) reducesTo_S8_S_d0 h_S_)
    (constant S_ .f32 0x41000000#32)

/-- The host lines after the region, as one function of the two output arrays. -/
def tail (a0 a1 : (⟨S8x1x4096, .f32⟩ : BufTy).Contents (Elt F)) : (⟨S_, .f32⟩ : BufTy).Contents (Elt F) :=
  meanOfMeans (shapeCast S8x4096 a0 shapeCasts_S8x1x4096_S8x4096) (shapeCast S8x4096 a1 shapeCasts_S8x1x4096_S8x4096)

variable (m : (ℓ : Loc nD τ sig) → Buf (Elt F) ℓ)

/-- The result buffer after the host lines is that function of whatever the two output arrays end holding. -/
theorem tail_eq (c : Dev nD) (A2 : Buf (Elt F) ((c : Thread nD τ).loc main_v0_0)) (A3 : Buf (Elt F) ((c : Thread nD τ).loc main_v0_1))
    (h2 : (dats m 0 c).arrAt 2 cfg0.N = A2) (h3 : (dats m 0 c).arrAt 3 cfg0.N = A3) :
    Pipeline.afterTail₀ cfgs (dats m) 0 (V0 m) [hostOps1] c main_v11 = tail A2 A3 := by
  unfold Pipeline.afterTail₀
  show StableHlo.after hostOps1 _ (Proc.devRef .tc main_v11) = _
  after_results
  have e2 : Pipeline.withArrays (cfgs 0).spec c (V0 m c) (fun w => (dats m 0 c).arrAt w (cfgs 0).N) (Proc.tc.devRef main_v0_0) = A2 :=
    (Pipeline.withArrays_arr spec0 winFacts0.arr_inj c _ _ 2).trans h2
  have e3 : Pipeline.withArrays (cfgs 0).spec c (V0 m c) (fun w => (dats m 0 c).arrAt w (cfgs 0).N) (Proc.tc.devRef main_v0_1) = A3 :=
    (Pipeline.withArrays_arr spec0 winFacts0.arr_inj c _ _ 3).trans h3
  rw [e2, e3]
  rfl

/-- The result buffer is an unscoped buffer that no window stages. -/
theorem v11_mem : main_v11 ∈ Pipeline.restRefs sig (cfgs 0).spec :=
  Pipeline.mem_restRefs_of main_v11 rfl (by decide)

end Cert.KernelIdeal.Tail

end
-- ==== Proof.KerRun.lean ====
/-
  The idealized kernel program's run, read as a value: every weakly fair execution ends with the result buffer at the
  mean of means of the two arrays of nearest-neighbour minima, and with the two clouds unchanged.
-/
import proofs.«150301_j11776800325759_1_alg».proof.Proof.Gen.KernelIdeal.Frame
import proofs.«150301_j11776800325759_1_alg».proof.Proof.KerInv
import proofs.«150301_j11776800325759_1_alg».proof.Proof.KerArr
import proofs.«150301_j11776800325759_1_alg».proof.Proof.KerTail

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The first output array ends holding the row minima: every flushed block does (the induction along the grid), and the
    flushed blocks cover the array. -/
theorem final2 (c : Dev nD) : (dats m 0 c).arrAt 2 cfg0.N = Arr.rowArr m c :=
  Arr.final2 m c (fun t h r => Inv.out2_eq m c t h r)

/-- The second output array ends holding the column minima. -/
theorem final3 (c : Dev nD) : (dats m 0 c).arrAt 3 cfg0.N = Arr.colArr m c :=
  Arr.final3 m c (fun t h q => Inv.out3_eq m c t h q)

/-- The run of the idealized kernel program, with its result named. -/
theorem run : θ_run defs (onTc (τ := τ) (main (F := Ideal))) ⟨m, fun _ => 0, ρ⟩ (fun r => ∀ c : Dev nD,
      r.2.mem ((c.tc : Thread nD τ).loc main_v11) = Tail.tail (Arr.rowArr m c) (Arr.colArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v11 Tail.v11_mem).trans (Tail.tail_eq m c _ _ (final2 m c) (final3 m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.RefDist.lean ====
/-
  The reference read at an index, at the extended reals: its [8, 4096, 4096] array of squared distances is the
  distance formula entry by entry, and its two minimum-reductions over that array are the nearest-neighbour minima.
-/
import proofs.«150301_j11776800325759_1_alg».proof.Proof.Gen.ReferenceIdeal.Read
import proofs.«150301_j11776800325759_1_alg».proof.Proof.DistSpec
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx
open Cert.ReferenceIdeal Cert.ReferenceIdeal.Gen Cert.ReferenceIdeal.Read

/-! ## The composed index maps, by coordinates -/

/-- At entry (b, n, m) the contraction reads the first cloud at (b, n, k) … -/
private theorem lidx_ix3 (b : Fin 8) (n m : Fin 4096) (k : Fin 3) :
    lidx_main_v0 (ix3 b n m) k = ix3 b n k :=
  funext fun a => Fin.ext (by match a with | ⟨0, _⟩ => rfl | ⟨1, _⟩ => rfl | ⟨2, _⟩ => rfl)

/-- … and the second cloud at (b, m, k). -/
private theorem ridx_ix3 (b : Fin 8) (n m : Fin 4096) (k : Fin 3) :
    ridx_main_v0 (ix3 b n m) k = ix3 b m k :=
  funext fun a => Fin.ext (by match a with | ⟨0, _⟩ => rfl | ⟨1, _⟩ => rfl | ⟨2, _⟩ => rfl)

/-- The squared norm of the first cloud's point, broadcast along the last axis, reads (b, n, k) at entry (b, n, m). -/
private theorem idx4_ix3 (b : Fin 8) (n m : Fin 4096) (k : Fin 3) :
    idx_main_v4 (idx_main_v5 (idx_main_v6 (ix3 b n m))) k = ix3 b n k :=
  funext fun a => Fin.ext (by match a with | ⟨0, _⟩ => rfl | ⟨1, _⟩ => rfl | ⟨2, _⟩ => rfl)

/-- The squared norm of the second cloud's point, broadcast along the middle axis, reads (b, m, k) at entry (b, n, m). -/
private theorem idx9_ix3 (b : Fin 8) (n m : Fin 4096) (k : Fin 3) :
    idx_main_v9 (idx_main_v10 (idx_main_v11 (ix3 b n m))) k = ix3 b m k :=
  funext fun a => Fin.ext (by match a with | ⟨0, _⟩ => rfl | ⟨1, _⟩ => rfl | ⟨2, _⟩ => rfl)

/-- Entry (b, n, m) of the reference's distance array is the squared distance from point n to point m of cloud b. -/
theorem v12_apply (x0 x1 : (⟨S8x4096x3, .f32⟩ : BufTy).Contents (Elt Ideal)) (b : Fin 8) (n m : Fin 4096) :
    val_main_v12 (F := Ideal) x0 x1 (ix3 b n m) = Cert.Chamfer.dist x0 x1 b n m := by
  rw [val_main_v12_apply, val_main_v7_apply, val_main_v2_apply, val_main_v1_apply, val_main_cst_apply,
    val_main_v0_apply, val_main_v6_apply, val_main_v5_apply, val_main_v4_apply, val_main_cst_0_apply,
    val_main_v11_apply, val_main_v10_apply, val_main_v9_apply, val_main_cst_1_apply]
  simp only [val_main_v3_apply, val_main_v8_apply, Ideal.mulf_def, Ideal.addf_def, Ideal.ofBits_def,
    Ideal.ofBits_zero_f32, zero_add, lidx_ix3, ridx_ix3, idx4_ix3, idx9_ix3]
  rfl

/-! ## The two minimum-reductions, for any array in place of the distances -/

/-- From +∞ the minimum-reduction of an [8, 4096, 4096] array over its last axis is, at (b, n), the minimum over m of
    the entries (b, n, m): the reduced index with coordinate m put back on the last axis is (b, n, m). -/
private theorem reduce_min_last (y : (⟨S8x4096x4096, .f32⟩ : BufTy).Contents (Elt Ideal)) (b : Fin 8) (n : Fin 4096) :
    Host.reduce (FloatOps.minimumf (F := Ideal) (φ := .f32)) y (val_main_cst_2 (F := Ideal)) reducesTo_S8x4096x4096_S8x4096_d2 h_S_ (ix2 b n)
      = Finset.univ.fold min Cert.Chamfer.posInf fun m : Fin 4096 => y (ix3 b n m) := by
  have h : S8x4096x4096.Reduces [2] S8x4096 := by decide
  rw [Host.reduce_eq_fold_single (FloatOps.minimumf (F := Ideal) (φ := .f32)) y _ reducesTo_S8x4096x4096_S8x4096_d2 h h_S_]
  have hf : (y ∘ h.lift (ix2 b n)) = fun m : Fin 4096 => y (ix3 b n m) :=
    funext fun m => congrArg y (funext fun c => Fin.ext (by
      match c with | ⟨0, _⟩ => rfl | ⟨1, _⟩ => rfl | ⟨2, _⟩ => rfl))
  exact congrArg (fun f => Finset.fold min Cert.Chamfer.posInf f (Finset.univ : Finset (Fin 4096))) hf

/-- The same over the middle axis: at (b, m), the minimum over n of the entries (b, n, m). -/
private theorem reduce_min_mid (y : (⟨S8x4096x4096, .f32⟩ : BufTy).Contents (Elt Ideal)) (b : Fin 8) (m : Fin 4096) :
    Host.reduce (FloatOps.minimumf (F := Ideal) (φ := .f32)) y (val_main_cst_3 (F := Ideal)) reducesTo_S8x4096x4096_S8x4096_d1 h_S_ (ix2 b m)
      = Finset.univ.fold min Cert.Chamfer.posInf fun n : Fin 4096 => y (ix3 b n m) := by
  have h : S8x4096x4096.Reduces [1] S8x4096 := by decide
  rw [Host.reduce_eq_fold_single (FloatOps.minimumf (F := Ideal) (φ := .f32)) y _ reducesTo_S8x4096x4096_S8x4096_d1 h h_S_]
  have hf : (y ∘ h.lift (ix2 b m)) = fun n : Fin 4096 => y (ix3 b n m) :=
    funext fun n => congrArg y (funext fun c => Fin.ext (by
      match c with | ⟨0, _⟩ => rfl | ⟨1, _⟩ => rfl | ⟨2, _⟩ => rfl))
  exact congrArg (fun f => Finset.fold min Cert.Chamfer.posInf f (Finset.univ : Finset (Fin 4096))) hf

/-- The reference's minimum over the last axis: for each point of the first cloud, its least distance to the second. -/
theorem v13_apply (x0 x1 : (⟨S8x4096x3, .f32⟩ : BufTy).Contents (Elt Ideal)) (b : Fin 8) (n : Fin 4096) :
    val_main_v13 (F := Ideal) x0 x1 (ix2 b n) = Cert.Chamfer.rowMin x0 x1 b n := by
  unfold val_main_v13
  rw [reduce_min_last]
  unfold Cert.Chamfer.rowMin
  exact congrArg (fun f => Finset.fold min Cert.Chamfer.posInf f (Finset.univ : Finset (Fin 4096)))
    (funext fun m => v12_apply x0 x1 b n m)

/-- The reference's minimum over the middle axis: for each point of the second cloud, its least distance to the first. -/
theorem v14_apply (x0 x1 : (⟨S8x4096x3, .f32⟩ : BufTy).Contents (Elt Ideal)) (b : Fin 8) (m : Fin 4096) :
    val_main_v14 (F := Ideal) x0 x1 (ix2 b m) = Cert.Chamfer.colMin x0 x1 b m := by
  unfold val_main_v14
  rw [reduce_min_mid]
  unfold Cert.Chamfer.colMin
  exact congrArg (fun f => Finset.fold min Cert.Chamfer.posInf f (Finset.univ : Finset (Fin 4096)))
    (funext fun n => v12_apply x0 x1 b n m)

end Cert.ReferenceIdeal.RefValue

end
-- ==== Proof.Bridge.lean ====
/-
  The two programs meet. The reference's result is the mean of means of its two arrays of minima; the kernel's is the
  same mean of means of its two output arrays read as [8, 4096]. Entry by entry those arrays are the same
  nearest-neighbour minima of the same clouds, so the results are equal.
-/
import proofs.«150301_j11776800325759_1_alg».proof.Proof.Gen.KernelIdeal.Frame
import proofs.«150301_j11776800325759_1_alg».proof.Proof.Gen.ReferenceIdeal.Read
import proofs.«150301_j11776800325759_1_alg».proof.Proof.RefDist
import proofs.«150301_j11776800325759_1_alg».proof.Proof.KerArr
import proofs.«150301_j11776800325759_1_alg».proof.Proof.KerTail
import Idealize.ShloMosaic.Lib.Pipeline.Value
import Idealize.ShloMosaic.Lib.ValueIdx

set_option maxRecDepth 16384

noncomputable section

namespace Cert.Proof.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- Reading [8, 1, 4096] as [8, 4096] drops the unit axis: entry (b, n) is entry (b, 0, n). -/
theorem reshape_apply (x : (⟨Cert.KernelIdeal.S8x1x4096, .f32⟩ : BufTy).Contents (Elt Ideal)) (b : Fin 8) (n : Fin 4096) :
    shapeCast Cert.KernelIdeal.S8x4096 x Cert.KernelIdeal.Facts₀.shapeCasts_S8x1x4096_S8x4096 (ix2 b n) = x (ix3 b (0 : Fin 1) n) := by
  refine shapeCast_apply x _ (ix2 b n) (ix3 b (0 : Fin 1) n) ?_
  rw [Shape.rowMajor_val_three, Shape.rowMajor_val_two]
  show (b.val * 1 + 0) * 4096 + n.val = b.val * 4096 + n.val
  omega

/-- The reference's array of row minima is the kernel's first output read as [8, 4096]. -/
theorem rows_eq (c : Dev Cert.KernelIdeal.nD) :
    Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = shapeCast Cert.KernelIdeal.S8x4096 (Cert.KernelIdeal.Arr.rowArr m c) Cert.KernelIdeal.Facts₀.shapeCasts_S8x1x4096_S8x4096 := by
  funext j
  obtain ⟨b, n, rfl⟩ : ∃ (b : Fin 8) (n : Fin 4096), j = ix2 b n := ⟨j 0, j 1, eq_ix2 j⟩
  rw [Cert.ReferenceIdeal.RefValue.v13_apply, reshape_apply]
  rfl

/-- The reference's array of column minima is the kernel's second output read as [8, 4096]. -/
theorem cols_eq (c : Dev Cert.KernelIdeal.nD) :
    Cert.ReferenceIdeal.Read.val_main_v14 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = shapeCast Cert.KernelIdeal.S8x4096 (Cert.KernelIdeal.Arr.colArr m c) Cert.KernelIdeal.Facts₀.shapeCasts_S8x1x4096_S8x4096 := by
  funext j
  obtain ⟨b, q, rfl⟩ : ∃ (b : Fin 8) (q : Fin 4096), j = ix2 b q := ⟨j 0, j 1, eq_ix2 j⟩
  rw [Cert.ReferenceIdeal.RefValue.v14_apply, reshape_apply]
  rfl

/-- The reference's result is the same mean of means of the same two arrays. -/
theorem result_eq (c : Dev Cert.KernelIdeal.nD) :
    Cert.ReferenceIdeal.Read.val_main_v23 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Tail.tail (Cert.KernelIdeal.Arr.rowArr m c) (Cert.KernelIdeal.Arr.colArr m c) := by
  unfold Cert.KernelIdeal.Tail.tail
  rw [← rows_eq m c, ← cols_eq m c]
  rfl

end Cert.Proof.Bridge

end
-- ==== Proof.lean ====
/-
  The chamfer distance of two batches of point clouds, tiled on a grid, against the plain formula.

  Both programs form, for every pair of a point p of the first cloud and a point q of the second, the squared distance
  (−2)·⟨p, q⟩ + ⟨p, p⟩ + ⟨q, q⟩, take for every p the least distance to a q and for every q the least distance to a p, and
  return the mean over the eight clouds of the sum of the two means of those minima. The reference does so on whole
  [8, 4096, 4096] arrays. The kernel walks tiles of 1024 × 1024 distances and keeps two running minima, one per point of
  the current block of the first cloud and one per point of the second cloud, each started at +∞ and met with every tile
  once. Over the extended reals a change of float format is the identity and minima and sums may be regrouped, so the two
  results are equal; no finiteness of the inputs is used. The idealization rewrote nothing.
-/
import proofs.«150301_j11776800325759_1_alg».proof.Defs
import proofs.«150301_j11776800325759_1_alg».proof.Proof.Gen.Kernel
import proofs.«150301_j11776800325759_1_alg».proof.Proof.Gen.Kernel.Skeleton
import proofs.«150301_j11776800325759_1_alg».proof.Proof.Gen.Kernel.Launch
import proofs.«150301_j11776800325759_1_alg».proof.Proof.Gen.Kernel.Points
import proofs.«150301_j11776800325759_1_alg».proof.Proof.Gen.Kernel.Frame
import proofs.«150301_j11776800325759_1_alg».proof.Proof.Gen.KernelIdeal
import proofs.«150301_j11776800325759_1_alg».proof.Proof.Gen.KernelIdeal.Skeleton
import proofs.«150301_j11776800325759_1_alg».proof.Proof.Gen.KernelIdeal.Launch
import proofs.«150301_j11776800325759_1_alg».proof.Proof.Gen.KernelIdeal.Points
import proofs.«150301_j11776800325759_1_alg».proof.Proof.Gen.KernelIdeal.Frame
import proofs.«150301_j11776800325759_1_alg».proof.Proof.Gen.ReferenceIdeal
import proofs.«150301_j11776800325759_1_alg».proof.Proof.Gen.ReferenceIdeal.Run
import proofs.«150301_j11776800325759_1_alg».proof.Proof.Gen.ReferenceIdeal.Read
import proofs.«150301_j11776800325759_1_alg».proof.Proof.Gen.Pre_finite_inputs
import proofs.«150301_j11776800325759_1_alg».proof.Proof.KerRun
import proofs.«150301_j11776800325759_1_alg».proof.Proof.Bridge
import Idealize.ShloMosaic.Adequacy
import Idealize.ShloMosaic.Init

noncomputable section

namespace Cert.Proof

open Idealize.ShloMosaic Idealize.SL.Sem

/-- The word-level kernel program runs and leaves the two clouds as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From clouds that agree, the idealized kernel and the idealized reference end with the same number. -/
theorem algebraic : Cert.algebraic_KernelIdeal_ReferenceIdeal := by
  intro m ρ m' ρ' _ hagree
  refine ⟨fun c => Cert.KernelIdeal.Tail.tail (Cert.KernelIdeal.Arr.rowArr m c) (Cert.KernelIdeal.Arr.colArr m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2]
  exact Cert.Proof.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
